-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S100000x64 : Shape := ⟨2, ![100000, 64]⟩
abbrev S100000 : Shape := ⟨1, ![100000]⟩
abbrev S2000000 : Shape := ⟨1, ![2000000]⟩
abbrev S67x64 : Shape := ⟨2, ![67, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S67x64 : S_.BroadcastsInDim S67x64 (![] : Fin 0 → Fin S67x64.rank)
  reducesTo_S67x64_S_d0_1 : S67x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg10 : FVec F S64x64 .f32) (main_arg11 : FVec F S64 .f32) (main_arg12 : FVec F S64x2 .f32) (main_arg13 : FVec F S2 .f32) (main_v33 : IVec S_ 1) : IVec S_ 1 :=
  let main_v34 : FVec F S64x64 .f32 := Host.absf main_arg10
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x2 .f32 := Host.absf main_arg12
  let main_cst_16 : FVec F S_ .f32 := constant S_ .f32 0x7F800000#32
  let main_v45 : FVec F S64x2 .f32 := broadcastInDim S64x2 ![] bcast_S_S64x2 main_cst_16
  let main_v46 : IVec S64x2 1 := cmpf .olt main_v44 main_v45
  let main_c_17 : IVec S_ 1 := constantI S_ 1 1#1
  let main_v47 : IVec S_ 1 := (fun x v => Host.reduce IntOp.andi x v reducesTo_S64x2_S_d0_1 h_S_) main_v46 main_c_17
  let main_v48 : IVec S_ 1 := andi main_v43 main_v47
  let main_v49 : FVec F S2 .f32 := Host.absf main_arg13
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg7 : FVec F S64 .f32) (main_arg8 : FVec F S64x64 .f32) (main_arg9 : FVec F S64 .f32) (main_arg10 : FVec F S64x64 .f32) (main_arg11 : FVec F S64 .f32) (main_arg12 : FVec F S64x2 .f32) (main_arg13 : FVec F S2 .f32) (main_v13 : IVec S_ 1) (main_v16 : IVec S67x64 1) : IVec S_ 1 :=
  let main_c_5 : IVec S_ 1 := constantI S_ 1 1#1
  let main_v17 : IVec S_ 1 := (fun x v => Host.reduce IntOp.andi x v reducesTo_S67x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg8
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg10 main_arg11 main_arg12 main_arg13 main_v33

def fn {F : FTy → Type} [FloatOps F] (main_arg0 : FVec F S100000x3 .f32) (main_arg1 : FVec F S100000x64 .f32) (main_arg2 : FVec F S100000x3 .f32) (main_arg3 : IVec S100000 32) (main_arg4 : IVec S2000000 32) (main_arg5 : IVec S2000000 32) (main_arg6 : FVec F S67x64 .f32) (main_arg7 : FVec F S64 .f32) (main_arg8 : FVec F S64x64 .f32) (main_arg9 : FVec F S64 .f32) (main_arg10 : FVec F S64x64 .f32) (main_arg11 : FVec F S64 .f32) (main_arg12 : FVec F S64x2 .f32) (main_arg13 : FVec F S2 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S100000x3 .f32 := Host.absf main_arg2
  let main_cst_2 : FVec F S_ .f32 := constant S_ .f32 0x7F800000#32
  let main_v10 : FVec F S100000x3 .f32 := broadcastInDim S100000x3 ![] bcast_S_S100000x3 main_cst_2
  let main_v11 : IVec S100000x3 1 := cmpf .olt main_v9 main_v10
  let main_c_3 : IVec S_ 1 := constantI S_ 1 1#1
  let main_v12 : IVec S_ 1 := (fun x v => Host.reduce IntOp.andi x v reducesTo_S100000x3_S_d0_1 h_S_) main_v11 main_c_3
  let main_v13 : IVec S_ 1 := andi main_v8 main_v12
  let main_v14 : FVec F S67x64 .f32 := Host.absf main_arg6
  let main_cst_4 : FVec F S_ .f32 := constant S_ .f32 0x7F800000#32
  let main_v15 : FVec F S67x64 .f32 := broadcastInDim S67x64 ![] bcast_S_S67x64 main_cst_4
  let main_v16 : IVec S67x64 1 := cmpf .olt main_v14 main_v15
  fn_part1 (F := F) main_arg7 main_arg8 main_arg9 main_arg10 main_arg11 main_arg12 main_arg13 main_v13 main_v16
-- ==== Kernel.lean ====
abbrev S100000x3 : Shape := ⟨2, ![100000, 3]⟩
abbrev S100000x64 : Shape := ⟨2, ![100000, 64]⟩
abbrev S100000 : Shape := ⟨1, ![100000]⟩
abbrev S2000000 : Shape := ⟨1, ![2000000]⟩
abbrev S67x64 : Shape := ⟨2, ![67, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩
abbrev S2000000x1 : Shape := ⟨2, ![2000000, 1]⟩
abbrev S2000000x64 : Shape := ⟨2, ![2000000, 64]⟩
abbrev S2000000x3 : Shape := ⟨2, ![2000000, 3]⟩
abbrev S2000000x67 : Shape := ⟨2, ![2000000, 67]⟩
abbrev S2000000x2 : Shape := ⟨2, ![2000000, 2]⟩
abbrev S10000x67 : Shape := ⟨2, ![10000, 67]⟩
abbrev S10000x2 : Shape := ⟨2, ![10000, 2]⟩
abbrev S10000x64 : Shape := ⟨2, ![10000, 64]⟩
abbrev S1x64 : Shape := ⟨2, ![1, 64]⟩
abbrev S1x2 : Shape := ⟨2, ![1, 2]⟩
abbrev S10000 : Shape := ⟨1, ![10000]⟩
abbrev S10000x1 : Shape := ⟨2, ![10000, 1]⟩

abbrev nBuf : Space → Nat
  | .hbm => 59
  | .vmem => 12
  | .smem => 0
  | _ => 0

abbrev bufTy : (tb : Table) → Fin (tcTables nBuf tb) → BufTy
  | .hbm, ⟨0, _⟩ => ⟨S100000x3, .f32⟩
  | .hbm, ⟨1, _⟩ => ⟨S100000x64, .f32⟩
  | .hbm, ⟨2, _⟩ => ⟨S100000x3, .f32⟩
  | .hbm, ⟨3, _⟩ => ⟨S100000, .i32⟩
  | .hbm, ⟨4, _⟩ => ⟨S2000000, .i32⟩
  | .hbm, ⟨5, _⟩ => ⟨S2000000, .i32⟩
  | .hbm, ⟨6, _⟩ => ⟨S67x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x2, .f32⟩
  | .hbm, ⟨13, _⟩ => ⟨S2, .f32⟩
  | .hbm, ⟨14, _⟩ => ⟨S100000x64, .bf16⟩
  | .hbm, ⟨15, _⟩ => ⟨S_, .i32⟩
  | .hbm, ⟨16, _⟩ => ⟨S2000000, .i32⟩
  | .hbm, ⟨17, _⟩ => ⟨S2000000, .i1⟩
  | .hbm, ⟨18, _⟩ => ⟨S_, .i32⟩
  | .hbm, ⟨19, _⟩ => ⟨S2000000, .i32⟩
  | .hbm, ⟨20, _⟩ => ⟨S2000000, .i32⟩
  | .hbm, ⟨21, _⟩ => ⟨S2000000, .i32⟩
  | .hbm, ⟨22, _⟩ => ⟨S2000000x1, .i32⟩
  | .hbm, ⟨23, _⟩ => ⟨S2000000x64, .bf16⟩
  | .hbm, ⟨24, _⟩ => ⟨S_, .i32⟩
  | .hbm, ⟨25, _⟩ => ⟨S2000000, .i32⟩
  | .hbm, ⟨26, _⟩ => ⟨S2000000, .i1⟩
  | .hbm, ⟨27, _⟩ => ⟨S_, .i32⟩
  | .hbm, ⟨28, _⟩ => ⟨S2000000, .i32⟩
  | .hbm, ⟨29, _⟩ => ⟨S2000000, .i32⟩
  | .hbm, ⟨30, _⟩ => ⟨S2000000, .i32⟩
  | .hbm, ⟨31, _⟩ => ⟨S2000000x1, .i32⟩
  | .hbm, ⟨32, _⟩ => ⟨S2000000x3, .f32⟩
  | .hbm, ⟨33, _⟩ => ⟨S_, .i32⟩
  | .hbm, ⟨34, _⟩ => ⟨S2000000, .i32⟩
  | .hbm, ⟨35, _⟩ => ⟨S2000000, .i1⟩
  | .hbm, ⟨36, _⟩ => ⟨S_, .i32⟩
  | .hbm, ⟨37, _⟩ => ⟨S2000000, .i32⟩
  | .hbm, ⟨38, _⟩ => ⟨S2000000, .i32⟩
  | .hbm, ⟨39, _⟩ => ⟨S2000000, .i32⟩
  | .hbm, ⟨40, _⟩ => ⟨S2000000x1, .i32⟩
  | .hbm, ⟨41, _⟩ => ⟨S2000000x3, .f32⟩
  | .hbm, ⟨42, _⟩ => ⟨S2000000x3, .f32⟩
  | .hbm, ⟨43, _⟩ => ⟨S2000000x3, .bf16⟩
  | .hbm, ⟨44, _⟩ => ⟨S2000000x67, .bf16⟩
  | .hbm, ⟨45, _⟩ => ⟨S67x64, .bf16⟩
  | .hbm, ⟨46, _⟩ => ⟨S64x64, .bf16⟩
  | .hbm, ⟨47, _⟩ => ⟨S64x64, .bf16⟩
  | .hbm, ⟨48, _⟩ => ⟨S64x2, .bf16⟩
  | .hbm, ⟨49, _⟩ => ⟨S2000000x2, .f32⟩
  | .hbm, ⟨50, _⟩ => ⟨S_, .i32⟩
  | .hbm, ⟨51, _⟩ => ⟨S2000000, .i32⟩
  | .hbm, ⟨52, _⟩ => ⟨S2000000, .i1⟩
  | .hbm, ⟨53, _⟩ => ⟨S_, .i32⟩
  | .hbm, ⟨54, _⟩ => ⟨S2000000, .i32⟩
  | .hbm, ⟨55, _⟩ => ⟨S2000000, .i32⟩
  | .hbm, ⟨56, _⟩ => ⟨S2000000, .i32⟩
  | .hbm, ⟨57, _⟩ => ⟨S2000000x1, .i32⟩
  | .hbm, ⟨58, _⟩ => ⟨S2000000, .i32⟩
  | .local _ .vmem, ⟨0, _⟩ => ⟨S10000x67, .bf16⟩
  | .local _ .vmem, ⟨1, _⟩ => ⟨S10000x67, .bf16⟩
  | .local _ .vmem, ⟨2, _⟩ => ⟨S67x64, .bf16⟩
  | .local _ .vmem, ⟨3, _⟩ => ⟨S64, .f32⟩
  | .local _ .vmem, ⟨4, _⟩ => ⟨S64x64, .bf16⟩
  | .local _ .vmem, ⟨5, _⟩ => ⟨S64, .f32⟩
  | .local _ .vmem, ⟨6, _⟩ => ⟨S64x64, .bf16⟩
  | .local _ .vmem, ⟨7, _⟩ => ⟨S64, .f32⟩
  | .local _ .vmem, ⟨8, _⟩ => ⟨S64x2, .bf16⟩
  | .local _ .vmem, ⟨9, _⟩ => ⟨S2, .f32⟩
  | .local _ .vmem, ⟨10, _⟩ => ⟨S10000x2, .f32⟩
  | .local _ .vmem, ⟨11, _⟩ => ⟨S10000x2, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c_1 : Ref sig .tc := ⟨.hbm, 24, rfl⟩
abbrev main_v8 : Ref sig .tc := ⟨.hbm, 25, rfl⟩
abbrev main_v9 : Ref sig .tc := ⟨.hbm, 26, rfl⟩
abbrev main_c_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x67 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S67x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x2 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10000x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x64_S2000000x3_S2000000x67_d1 : Shape.Concatenates [S2000000x64, S2000000x3] S2000000x67 1
  inb_S10000x67_S10000x67_0_0 : ∀ a, (![0, 0] : Fin 2 → Nat) a + S10000x67.size a ≤ S10000x67.size a
  h_S10000x67 : 0 < S10000x67.numel
  shapeCasts_S10000x67_S10000x67 : S10000x67.ShapeCasts S10000x67
  inb_S67x64_S67x64_0_0 : ∀ a, (![0, 0] : Fin 2 → Nat) a + S67x64.size a ≤ S67x64.size a
  h_S67x64 : 0 < S67x64.numel
  shapeCasts_S67x64_S67x64 : S67x64.ShapeCasts S67x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S2_S2_0 : ∀ a, (![0] : Fin 1 → Nat) a + S2.size a ≤ S2.size a
  h_S2 : 0 < S2.numel
  shapeCasts_S2_S1x2 : S2.ShapeCasts S1x2
  broadcasts_S1x2_S10000x2 : S1x2.Broadcasts S10000x2
  reduces_S10000x2_S10000 : S10000x2.Reduces [1] S10000
  shapeCasts_S10000_S10000x1 : S10000.ShapeCasts S10000x1
  broadcasts_S10000x1_S10000x2 : S10000x1.Broadcasts S10000x2
  inb_S10000x2_S10000x2_0_0 : ∀ a, (![0, 0] : Fin 2 → Nat) a + S10000x2.size a ≤ S10000x2.size a
  h_S10000x2 : 0 < S10000x2.numel
  gather_S100000x64_S2000000x1_S2000000x64_1_0_n_n_0_1_164_wf : GatherDims.WF S100000x64 S2000000x1 S2000000x64 [1] [0] [] [0] [] 1 ![1, 64]
  gather_S100000x3_S2000000x1_S2000000x3_1_0_n_n_0_1_13_wf : GatherDims.WF S100000x3 S2000000x1 S2000000x3 [1] [0] [] [0] [] 1 ![1, 3]
  dot_S10000x67_S67x64_S10000x64_1_0_0_1_n_n_wf : DotDims.WF S10000x67 S67x64 S10000x64 [1] [0] [0] [1] [] []
  dot_S10000x64_S64x64_S10000x64_1_0_0_1_n_n_wf : DotDims.WF S10000x64 S64x64 S10000x64 [1] [0] [0] [1] [] []
  dot_S10000x64_S64x2_S10000x2_1_0_0_1_n_n_wf : DotDims.WF S10000x64 S64x2 S10000x2 [1] [0] [0] [1] [] []
  gather_S100000_S2000000x1_S2000000_n_0_n_n_0_1_1_wf : GatherDims.WF S100000 S2000000x1 S2000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x67.size a ≤ S2000000x67.size a
  hwx0_0 : ∀ i : grid0.Coords, EltTy.bits .bf16 = 32 ∨ (Rect.block (s := S2000000x67) S10000x67.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S67x64.size a ≤ S67x64.size a
  hwx0_1 : ∀ i : grid0.Coords, EltTy.bits .bf16 = 32 ∨ (Rect.block (s := S67x64) S67x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x2.size a ≤ S64x2.size a
  hwx0_7 : ∀ i : grid0.Coords, EltTy.bits .bf16 = 32 ∨ (Rect.block (s := S64x2) S64x2.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2.size a ≤ S2.size a
  hwx0_8 : ∀ i : grid0.Coords, EltTy.bits .f32 = 32 ∨ (Rect.block (s := S2) S2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x2.size a ≤ S2000000x2.size a
  hwx0_9 : ∀ i : grid0.Coords, EltTy.bits .f32 = 32 ∨ (Rect.block (s := S2000000x2) S10000x2.size (cc0_transform_9 i) (hinb0_9 i)).WholeWords (EltTy.packing .f32)

variable [Facts₀]

def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def gather_S100000x3_S2000000x1_S2000000x3_1_0_n_n_0_1_13 : GatherDims S100000x3 S2000000x1 S2000000x3 where
  offsetDims := [1]
  collapsedSliceDims := [0]
  operandBatchingDims := []
  startIndicesBatchingDims := []
  startIndexMap := [0]
  indexVectorDim := 1
  sliceSizes := ![1, 3]
  wf := gather_S100000x3_S2000000x1_S2000000x3_1_0_n_n_0_1_13_wf
def dot_S10000x67_S67x64_S10000x64_1_0_0_1_n_n : DotDims S10000x67 S67x64 S10000x64 where
  lhsContracting := [1]
  rhsContracting := [0]
  lhsNonContracting := [0]
  rhsNonContracting := [1]
  lhsBatch := []
  rhsBatch := []
  wf := dot_S10000x67_S67x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf
def gather_S100000_S2000000x1_S2000000_n_0_n_n_0_1_1 : GatherDims S100000 S2000000x1 S2000000 where
  offsetDims := []
  collapsedSliceDims := [0]
  operandBatchingDims := []
  startIndicesBatchingDims := []
  startIndexMap := [0]
  indexVectorDim := 1
  sliceSizes := ![1]
  wf := gather_S100000_S2000000x1_S2000000_n_0_n_n_0_1_1_wf

abbrev win0_0 : Pipeline.Window sig grid0 :=
  Pipeline.Window.ofSpec (Memref.whole main_v24) S10000x67.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S67x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg11) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S64x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg13) S2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29) S10000x2.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x3 : Shape := ⟨2, ![100000, 3]⟩
abbrev S100000x64 : Shape := ⟨2, ![100000, 64]⟩
abbrev S100000 : Shape := ⟨1, ![100000]⟩
abbrev S2000000 : Shape := ⟨1, ![2000000]⟩
abbrev S67x64 : Shape := ⟨2, ![67, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩
abbrev S2000000x1 : Shape := ⟨2, ![2000000, 1]⟩
abbrev S2000000x3 : Shape := ⟨2, ![2000000, 3]⟩
abbrev S2000000x64 : Shape := ⟨2, ![2000000, 64]⟩
abbrev S2000000x67 : Shape := ⟨2, ![2000000, 67]⟩
abbrev S1x64 : Shape := ⟨2, ![1, 64]⟩
abbrev S2000000x2 : Shape := ⟨2, ![2000000, 2]⟩
abbrev S1x2 : Shape := ⟨2, ![1, 2]⟩

abbrev nBuf : Space → Nat
  | .hbm => 88
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S100000x64, .f32⟩
  | .hbm, ⟨2, _⟩ => ⟨S100000x3, .f32⟩
  | .hbm, ⟨3, _⟩ => ⟨S100000, .i32⟩
  | .hbm, ⟨4, _⟩ => ⟨S2000000, .i32⟩
  | .hbm, ⟨5, _⟩ => ⟨S2000000, .i32⟩
  | .hbm, ⟨6, _⟩ => ⟨S67x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x2, .f32⟩
  | .hbm, ⟨13, _⟩ => ⟨S2, .f32⟩
  | .hbm, ⟨14, _⟩ => ⟨S_, .i32⟩
  | .hbm, ⟨15, _⟩ => ⟨S2000000, .i32⟩
  | .hbm, ⟨16, _⟩ => ⟨S2000000, .i1⟩
  | .hbm, ⟨17, _⟩ => ⟨S_, .i32⟩
  | .hbm, ⟨18, _⟩ => ⟨S2000000, .i32⟩
  | .hbm, ⟨19, _⟩ => ⟨S2000000, .i32⟩
  | .hbm, ⟨20, _⟩ => ⟨S2000000, .i32⟩
  | .hbm, ⟨21, _⟩ => ⟨S2000000x1, .i32⟩
  | .hbm, ⟨22, _⟩ => ⟨S2000000x3, .f32⟩
  | .hbm, ⟨23, _⟩ => ⟨S_, .i32⟩
  | .hbm, ⟨24, _⟩ => ⟨S2000000, .i32⟩
  | .hbm, ⟨25, _⟩ => ⟨S2000000, .i1⟩
  | .hbm, ⟨26, _⟩ => ⟨S_, .i32⟩
  | .hbm, ⟨27, _⟩ => ⟨S2000000, .i32⟩
  | .hbm, ⟨28, _⟩ => ⟨S2000000, .i32⟩
  | .hbm, ⟨29, _⟩ => ⟨S2000000, .i32⟩
  | .hbm, ⟨30, _⟩ => ⟨S2000000x1, .i32⟩
  | .hbm, ⟨31, _⟩ => ⟨S2000000x3, .f32⟩
  | .hbm, ⟨32, _⟩ => ⟨S2000000x3, .f32⟩
  | .hbm, ⟨33, _⟩ => ⟨S_, .i32⟩
  | .hbm, ⟨34, _⟩ => ⟨S2000000, .i32⟩
  | .hbm, ⟨35, _⟩ => ⟨S2000000, .i1⟩
  | .hbm, ⟨36, _⟩ => ⟨S_, .i32⟩
  | .hbm, ⟨37, _⟩ => ⟨S2000000, .i32⟩
  | .hbm, ⟨38, _⟩ => ⟨S2000000, .i32⟩
  | .hbm, ⟨39, _⟩ => ⟨S2000000, .i32⟩
  | .hbm, ⟨40, _⟩ => ⟨S2000000x1, .i32⟩
  | .hbm, ⟨41, _⟩ => ⟨S2000000x64, .f32⟩
  | .hbm, ⟨42, _⟩ => ⟨S2000000x67, .f32⟩
  | .hbm, ⟨43, _⟩ => ⟨S2000000x64, .f32⟩
  | .hbm, ⟨44, _⟩ => ⟨S1x64, .f32⟩
  | .hbm, ⟨45, _⟩ => ⟨S2000000x64, .f32⟩
  | .hbm, ⟨46, _⟩ => ⟨S2000000x64, .f32⟩
  | .hbm, ⟨47, _⟩ => ⟨S_, .f32⟩
  | .hbm, ⟨48, _⟩ => ⟨S2000000x64, .f32⟩
  | .hbm, ⟨49, _⟩ => ⟨S2000000x64, .f32⟩
  | .hbm, ⟨50, _⟩ => ⟨S2000000x64, .f32⟩
  | .hbm, ⟨51, _⟩ => ⟨S1x64, .f32⟩
  | .hbm, ⟨52, _⟩ => ⟨S2000000x64, .f32⟩
  | .hbm, ⟨53, _⟩ => ⟨S2000000x64, .f32⟩
  | .hbm, ⟨54, _⟩ => ⟨S_, .f32⟩
  | .hbm, ⟨55, _⟩ => ⟨S2000000x64, .f32⟩
  | .hbm, ⟨56, _⟩ => ⟨S2000000x64, .f32⟩
  | .hbm, ⟨57, _⟩ => ⟨S2000000x64, .f32⟩
  | .hbm, ⟨58, _⟩ => ⟨S1x64, .f32⟩
  | .hbm, ⟨59, _⟩ => ⟨S2000000x64, .f32⟩
  | .hbm, ⟨60, _⟩ => ⟨S2000000x64, .f32⟩
  | .hbm, ⟨61, _⟩ => ⟨S2000000x2, .f32⟩
  | .hbm, ⟨62, _⟩ => ⟨S1x2, .f32⟩
  | .hbm, ⟨63, _⟩ => ⟨S2000000x2, .f32⟩
  | .hbm, ⟨64, _⟩ => ⟨S2000000x2, .f32⟩
  | .hbm, ⟨65, _⟩ => ⟨S_, .f32⟩
  | .hbm, ⟨66, _⟩ => ⟨S2000000, .f32⟩
  | .hbm, ⟨67, _⟩ => ⟨S_, .f32⟩
  | .hbm, ⟨68, _⟩ => ⟨S2000000, .f32⟩
  | .hbm, ⟨69, _⟩ => ⟨S2000000, .f32⟩
  | .hbm, ⟨70, _⟩ => ⟨S2000000x1, .f32⟩
  | .hbm, ⟨71, _⟩ => ⟨S2000000x2, .f32⟩
  | .hbm, ⟨72, _⟩ => ⟨S2000000x2, .f32⟩
  | .hbm, ⟨73, _⟩ => ⟨S2000000x2, .f32⟩
  | .hbm, ⟨74, _⟩ => ⟨S_, .f32⟩
  | .hbm, ⟨75, _⟩ => ⟨S2000000, .f32⟩
  | .hbm, ⟨76, _⟩ => ⟨S2000000x1, .f32⟩
  | .hbm, ⟨77, _⟩ => ⟨S2000000x2, .f32⟩
  | .hbm, ⟨78, _⟩ => ⟨S2000000x2, .f32⟩
  | .hbm, ⟨79, _⟩ => ⟨S_, .i32⟩
  | .hbm, ⟨80, _⟩ => ⟨S2000000, .i32⟩
  | .hbm, ⟨81, _⟩ => ⟨S2000000, .i1⟩
  | .hbm, ⟨82, _⟩ => ⟨S_, .i32⟩
  | .hbm, ⟨83, _⟩ => ⟨S2000000, .i32⟩
  | .hbm, ⟨84, _⟩ => ⟨S2000000, .i32⟩
  | .hbm, ⟨85, _⟩ => ⟨S2000000, .i32⟩
  | .hbm, ⟨86, _⟩ => ⟨S2000000x1, .i32⟩
  | .hbm, ⟨87, _⟩ => ⟨S2000000, .i32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call0_cst : Ref sig .tc := ⟨.hbm, 47, rfl⟩
abbrev main_call0_v0 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call1_cst : Ref sig .tc := ⟨.hbm, 54, rfl⟩
abbrev main_call1_v0 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst : Ref sig .tc := ⟨.hbm, 65, rfl⟩
abbrev main_v41 : Ref sig .tc := ⟨.hbm, 66, rfl⟩
abbrev main_cst_5 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_7 : Ref sig .tc := ⟨.hbm, 79, rfl⟩
abbrev main_v52 : Ref sig .tc := ⟨.hbm, 80, rfl⟩
abbrev main_v53 : Ref sig .tc := ⟨.hbm, 81, rfl⟩
abbrev main_c_8 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x64_S2000000x3_S2000000x67_d1 : Shape.Concatenates [S2000000x64, S2000000x3] S2000000x67 1
  bcast_S64_S1x64_1 : S64.BroadcastsInDim S1x64 (![1] : Fin 1 → Fin S1x64.rank)
  bcast_S1x64_S2000000x64_0_1 : S1x64.BroadcastsInDim S2000000x64 (![0, 1] : Fin 2 → Fin S2000000x64.rank)
  bcast_S_S2000000x64 : S_.BroadcastsInDim S2000000x64 (![] : Fin 0 → Fin S2000000x64.rank)
  bcast_S2_S1x2_1 : S2.BroadcastsInDim S1x2 (![1] : Fin 1 → Fin S1x2.rank)
  bcast_S1x2_S2000000x2_0_1 : S1x2.BroadcastsInDim S2000000x2 (![0, 1] : Fin 2 → Fin S2000000x2.rank)
  reducesTo_S2000000x2_S2000000_d1 : S2000000x2.ReducesTo [1] S2000000
  h_S_ : 0 < S_.numel
  bcast_S2000000x1_S2000000x2_0_1 : S2000000x1.BroadcastsInDim S2000000x2 (![0, 1] : Fin 2 → Fin S2000000x2.rank)
  gather_S100000x3_S2000000x1_S2000000x3_1_0_n_n_0_1_13_wf : GatherDims.WF S100000x3 S2000000x1 S2000000x3 [1] [0] [] [0] [] 1 ![1, 3]
  gather_S100000x64_S2000000x1_S2000000x64_1_0_n_n_0_1_164_wf : GatherDims.WF S100000x64 S2000000x1 S2000000x64 [1] [0] [] [0] [] 1 ![1, 64]
  dot_S2000000x67_S67x64_S2000000x64_1_0_0_1_n_n_wf : DotDims.WF S2000000x67 S67x64 S2000000x64 [1] [0] [0] [1] [] []
  dot_S2000000x64_S64x64_S2000000x64_1_0_0_1_n_n_wf : DotDims.WF S2000000x64 S64x64 S2000000x64 [1] [0] [0] [1] [] []
  dot_S2000000x64_S64x2_S2000000x2_1_0_0_1_n_n_wf : DotDims.WF S2000000x64 S64x2 S2000000x2 [1] [0] [0] [1] [] []
  gather_S100000_S2000000x1_S2000000_n_0_n_n_0_1_1_wf : GatherDims.WF S100000 S2000000x1 S2000000 [] [0] [] [0] [] 1 ![1]

variable [Facts₀]

def gather_S100000x3_S2000000x1_S2000000x3_1_0_n_n_0_1_13 : GatherDims S100000x3 S2000000x1 S2000000x3 where
  offsetDims := [1]
  collapsedSliceDims := [0]
  operandBatchingDims := []
  startIndicesBatchingDims := []
  startIndexMap := [0]
  indexVectorDim := 1
  sliceSizes := ![1, 3]
  wf := gather_S100000x3_S2000000x1_S2000000x3_1_0_n_n_0_1_13_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def dot_S2000000x67_S67x64_S2000000x64_1_0_0_1_n_n : DotDims S2000000x67 S67x64 S2000000x64 where
  lhsContracting := [1]
  rhsContracting := [0]
  lhsNonContracting := [0]
  rhsNonContracting := [1]
  lhsBatch := []
  rhsBatch := []
  wf := dot_S2000000x67_S67x64_S2000000x64_1_0_0_1_n_n_wf
def dot_S2000000x64_S64x64_S2000000x64_1_0_0_1_n_n : DotDims S2000000x64 S64x64 S2000000x64 where
  lhsContracting := [1]
  rhsContracting := [0]
  lhsNonContracting := [0]
  rhsNonContracting := [1]
  lhsBatch := []
  rhsBatch := []
  wf := dot_S2000000x64_S64x64_S2000000x64_1_0_0_1_n_n_wf
def dot_S2000000x64_S64x2_S2000000x2_1_0_0_1_n_n : DotDims S2000000x64 S64x2 S2000000x2 where
  lhsContracting := [1]
  rhsContracting := [0]
  lhsNonContracting := [0]
  rhsNonContracting := [1]
  lhsBatch := []
  rhsBatch := []
  wf := dot_S2000000x64_S64x2_S2000000x2_1_0_0_1_n_n_wf
def gather_S100000_S2000000x1_S2000000_n_0_n_n_0_1_1 : GatherDims S100000 S2000000x1 S2000000 where
  offsetDims := []
  collapsedSliceDims := [0]
  operandBatchingDims := []
  startIndicesBatchingDims := []
  startIndexMap := [0]
  indexVectorDim := 1
  sliceSizes := ![1]
  wf := gather_S100000_S2000000x1_S2000000_n_0_n_n_0_1_1_wf

class Facts : Prop extends Facts₀ where

variable [Facts]
-- ==== Proof.LibDenseRows.lean ====
/-
  Dense layers read along a row, for any number of rows and any widths. A dense layer sends a row x to x·W + b, and the
  rectifier takes the maximum with zero. A kernel spells the layer on a block of R rows as a block product into a zero
  accumulator plus the bias cast to one row and broadcast down the rows; a host program spells it on all R rows as a
  dot_general plus the bias broadcast in two steps. Read along row r, both are the row function of row r of the
  operand — at the extended reals, where the two products are the same sum over the contracted coordinate. The same
  for the rectifier in its two spellings (the maximum with a zero splat; the maximum with the zero word broadcast from
  a scalar), and for a change of float format, which changes no entry. The products are stated at the plain
  dimension record (rows × contraction times contraction × columns), to which a printed record of the same lists unfolds.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.LibDenseRows

open Idealize.ShloMosaic Idealize.ShloMosaic.ValueIdx

/-- The f32 word of zero read at the extended reals; kept as a word, since both spellings write the same one. -/
abbrev zeroW : EReal := Ideal.ofBits .f32 0x00000000#32

/-- A dense layer on one row: x ↦ x·W + b. -/
def dense {K N : ℕ} (x : Fin K → EReal) (W : Fin K → Fin N → EReal) (b : Fin N → EReal) : Fin N → EReal :=
  fun n => (∑ k : Fin K, x k * W k n) + b n

/-- The rectifier on one row. -/
def relu {N : ℕ} (x : Fin N → EReal) : Fin N → EReal := fun n => max (x n) zeroW

abbrev Sh2 (a b : ℕ) : Shape := ⟨2, ![a, b]⟩
abbrev Sh1 (a : ℕ) : Shape := ⟨1, ![a]⟩
abbrev Sh0 : Shape := ⟨0, ![]⟩

variable {R K N : ℕ} {φ₁ φ₂ : FTy}

/-- A block product into the zero accumulator, read at (a, b): the sum over the contracted coordinate. -/
theorem matmul_plain_zero_apply (prec : Option ContractPrecision) (A : FVec Ideal (Sh2 R K) φ₁) (B : FVec Ideal (Sh2 K N) φ₂)
    (a : Fin R) (b : Fin N) :
    matmul (DotDims.plain R K N) prec A B (constant (Sh2 R N) .f32 0x00000000#32) (ix2 a b) = ∑ c : Fin K, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

/-! ## Pointwise operations read at an index -/

theorem exp_apply {s : Shape} {φ : FTy} (v : FVec Ideal s φ) (i : s.Idx) : exp v i = Ideal.exp (v i) := rfl
theorem hostExp_apply {s : Shape} {φ : FTy} (v : FVec Ideal s φ) (i : s.Idx) : Host.exp v i = Ideal.exp (v i) := rfl
theorem hostDivf_apply {s : Shape} {φ : FTy} (a b : FVec Ideal s φ) (i : s.Idx) : Host.divf a b i = Ideal.div (a i) (b i) := rfl

/-- A change of float format changes no entry. -/
theorem truncf_row {φ ψ : FTy} (Z : FVec Ideal (Sh2 R N) φ) (h : ψ.bits < φ.bits) (r : Fin R) :
    (fun n : Fin N => (truncf ψ Z h : FVec Ideal (Sh2 R N) ψ) (ix2 r n)) = fun n => Z (ix2 r n) := rfl

/-! ## A kernel's spelling of a layer, on a block of R rows -/

/-- The kernel's dense layer: the block times the weights into a zero accumulator, plus the bias as a broadcast row. -/
def kDense (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) : FVec Ideal (Sh2 R N) .f32 :=
  addf (matmul (DotDims.plain R K N) none X W (constant (Sh2 R N) .f32 0x00000000#32))
    (broadcastTo (Sh2 R N) (shapeCast (Sh2 1 N) b h1) h2)

theorem kDense_row (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) (r : Fin R) :
    (fun n : Fin N => kDense X W b h1 h2 (ix2 r n))
      = dense (fun k => X (ix2 r k)) (fun k n => W (ix2 k n)) (fun n => b (ix1 n)) := by
  funext n
  unfold kDense dense
  rw [addf_apply, matmul_plain_zero_apply, broadcastTo_1b_ab_apply, shapeCast_a_1a_apply]

/-- The kernel's rectifier: the maximum with a splat of the zero word. -/
def kRelu (Z : FVec Ideal (Sh2 R N) .f32) : FVec Ideal (Sh2 R N) .f32 :=
  maximumf Z (broadcast (Sh2 R N) (Scalar.ofBits .f32 0x00000000#32))

theorem kRelu_row (Z : FVec Ideal (Sh2 R N) .f32) (r : Fin R) :
    (fun n : Fin N => kRelu Z (ix2 r n)) = relu (fun n => Z (ix2 r n)) := rfl

/-! ## A host program's spelling of a layer, on all R rows -/

/-- The host's dense layer: a dot_general plus the bias made a one-row matrix and repeated over the rows. -/
def hDense (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) : FVec Ideal (Sh2 R N) .f32 :=
  addf (Host.dotGeneral (DotDims.plain R K N) none X W)
    (broadcastInDim (Sh2 R N) ![0, 1] h2 (broadcastInDim (Sh2 1 N) ![1] h1 b))

/-- A bias vector made a one-row matrix and then repeated over the rows reads, at (r, n), the bias at n. -/
theorem biasRows_apply {α : Type} (b : (Sh1 N).Idx → α)
    (h1 : (Sh1 N).BroadcastsInDim (Sh2 1 N) ![1]) (h2 : (Sh2 1 N).BroadcastsInDim (Sh2 R N) ![0, 1]) (r : Fin R) (n : Fin N) :
    broadcastInDim (Sh2 R N) ![0, 1] h2 (broadcastInDim (Sh2 1 N) ![1] h1 b) (ix2 r n) = b (ix1 n) := by
  rw [broadcastInDim_apply ![0, 1] h2 _ (ix2 r n) (ix2 (0 : Fin 1) n) (fun a => by
    match a with
    | ⟨0, _⟩ => rfl
    | ⟨1, _⟩ =>
      show n.val = if N = 1 then 0 else n.val
      split
      · have := n.isLt; omega
      · rfl)]
  rw [broadcastInDim_apply ![1] h1 b (ix2 (0 : Fin 1) n) (ix1 n) (fun a => by
    match a with
    | ⟨0, _⟩ =>
      show n.val = if N = 1 then 0 else n.val
      split
      · have := n.isLt; omega
      · rfl)]

theorem hDense_row (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) (r : Fin R) :
    (fun n : Fin N => hDense X W b h1 h2 (ix2 r n))
      = dense (fun k => X (ix2 r k)) (fun k n => W (ix2 k n)) (fun n => b (ix1 n)) := by
  funext n
  unfold hDense dense
  rw [addf_apply, StackMember.dotGeneral_plain_apply, biasRows_apply]

/-- The reference's rectifier: the maximum with the zero word broadcast from a scalar. -/
def hRelu (Z : FVec Ideal (Sh2 R N) .f32) (hb : Sh0.BroadcastsInDim (Sh2 R N) ![]) : FVec Ideal (Sh2 R N) .f32 :=
  maximumf Z (broadcastInDim (Sh2 R N) ![] hb (constant Sh0 .f32 0x00000000#32))

theorem hRelu_row (Z : FVec Ideal (Sh2 R N) .f32) (hb : Sh0.BroadcastsInDim (Sh2 R N) ![]) (r : Fin R) :
    (fun n : Fin N => hRelu Z hb (ix2 r n)) = relu (fun n => Z (ix2 r n)) := by
  funext n
  unfold hRelu relu
  rw [maximumf_apply, broadcastInDim_apply ![] hb _ (ix2 r n) ix0 (fun a => a.elim0)]
  rfl

end Cert.LibDenseRows
-- ==== Proof.RowNet.lean ====
/-
  One row of the network as a function of extended-real vectors. A dense layer sends a row x to x·W + b; the
  rectifier takes the maximum with zero; the two-way softmax subtracts the row's maximum (folded from minus
  infinity, as both programs fold it), exponentiates and divides by the sum of the two exponentials. The network
  is four dense layers, the rectifier after the first and the second, and the softmax at the end. Both programs
  compute this function of each row of the gathered input; the two modules beside this one say so of their two
  array-level spellings. The words of zero and of minus infinity stay words: both programs spell the same ones,
  so their values are never needed.
-/
import proofs.«118086_j16681652977700_1_alg».proof.Proof.LibDenseRows

noncomputable section

namespace Cert.MlpRow

open Idealize.ShloMosaic Idealize.ShloMosaic.ValueIdx Cert.LibDenseRows

/-- The f32 word of minus infinity read at the extended reals; kept as a word, since both programs write the same one. -/
abbrev negInfW : EReal := Ideal.ofBits .f32 0xFF800000#32

/-- The two logits' maximum, folded from minus infinity and then joined with minus infinity once more, as both programs do. -/
def rowMax (z : Fin 2 → EReal) : EReal := max negInfW ((Finset.univ : Finset (Fin 2)).fold max negInfW z)

/-- The two-way softmax of one row. -/
def softmax (z : Fin 2 → EReal) : Fin 2 → EReal :=
  fun j => Ideal.div (Ideal.exp (z j - rowMax z)) (∑ k : Fin 2, Ideal.exp (z k - rowMax z))

/-- One row through the four dense layers (the rectifier after the first two) and the softmax. -/
def net (x : Fin 67 → EReal) (Win : Fin 67 → Fin 64 → EReal) (bin : Fin 64 → EReal) (W1 : Fin 64 → Fin 64 → EReal)
    (b1 : Fin 64 → EReal) (W2 : Fin 64 → Fin 64 → EReal) (b2 : Fin 64 → EReal) (Wout : Fin 64 → Fin 2 → EReal)
    (bout : Fin 2 → EReal) : Fin 2 → EReal :=
  softmax (dense (dense (relu (dense (relu (dense x Win bin)) W1 b1)) W2 b2) Wout bout)

variable {R K N : ℕ} {φ₁ φ₂ : FTy}

/-- The source index over row r whose column is k. -/
theorem lift_col (hred : (Sh2 R 2).Reduces [1] (Sh1 R)) (r : Fin R) (k : Fin ((Sh2 R 2).size 1)) :
    hred.lift (ix1 r) k = ix2 r (⟨k.val, k.isLt⟩ : Fin 2) := by
  funext c; apply Fin.ext
  fin_cases c <;> rfl

end Cert.MlpRow
-- ==== Proof.LibKeepdims.lean ====
/-
  Two layout facts for a reduction kept as a column: a length-`a` vector cast to an `a × 1` column reads, at
  row `p`, the vector at `p`; and an `a × 1` column broadcast to `a × b` reads, at `(p, c)`, the column at row `p`.
  Together they say that a row statistic (a row's sum, maximum, …) broadcast back over its row is that statistic
  at every column. Stated over literal rank-1 and rank-2 shapes with indices written by coordinates.
-/
import Idealize.ShloMosaic.Lib.ValueIdx
import Idealize.ShloMosaic.Lib.Pipeline.Value

namespace Cert.LibKeepdims

open Idealize.ShloMosaic Idealize.ShloMosaic.ValueIdx

variable {α : Type}

/-- An `[a]` array cast to `[a, 1]` reads, at `(p, u)`, the operand at `p`, whatever the unit coordinate `u`:
    the two indices have the same row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibKeepdims
-- ==== Proof.KernelSpelling.lean ====
/-
  The kernel's spelling of the network on a block of R rows, and that read along row r it is the row network of RowNet.
  The dense layers, the rectifier and the narrowing to bf16 are LibDenseRows'; here is the softmax — the lane maximum
  (from minus infinity) and the lane sum of the exponentials, each kept as a column and broadcast back over the two
  columns — and the composition of the layers. Stated for any number of rows R, so that the block's 10000 rows are
  an instance.
-/
import proofs.«118086_j16681652977700_1_alg».proof.Proof.RowNet
import proofs.«118086_j16681652977700_1_alg».proof.Proof.LibKeepdims
import Idealize.ShloMosaic.Lib.ValueLayout
import Idealize.ShloMosaic.Lib.Pipeline.Value

noncomputable section

namespace Cert.MlpRow

open Idealize.ShloMosaic Idealize.ShloMosaic.ValueIdx Cert.LibKeepdims Cert.LibDenseRows

variable {R K N : ℕ} {φ₁ φ₂ : FTy}

/-- A row statistic kept as a column and broadcast back over the two columns (the kernel's spelling). -/
theorem kKeep_apply {α : Type} (v : (Sh1 R).Idx → α) (hc : (Sh1 R).ShapeCasts (Sh2 R 1)) (hb : (Sh2 R 1).Broadcasts (Sh2 R 2))
    (r : Fin R) (c : Fin 2) : broadcastTo (Sh2 R 2) (shapeCast (Sh2 R 1) v hc) hb (ix2 r c) = v (ix1 r) := by
  rw [broadcastTo_a1_ab_apply, shapeCast_a_a1_apply]

/-- The kernel's row maximum: a lane maximum from minus infinity, joined with minus infinity once more. -/
def kRowMax (Z : FVec Ideal (Sh2 R 2) .f32) (hred : (Sh2 R 2).Reduces [1] (Sh1 R)) : FVec Ideal (Sh1 R) .f32 :=
  maximumf (broadcast (Sh1 R) (Scalar.ofBits .f32 0xFF800000#32))
    (multiReduction .maximumf [1] (Sh1 R) Z 0xFF800000#32 hred (.inl rfl) rfl)

theorem kRowMax_apply (Z : FVec Ideal (Sh2 R 2) .f32) (hred : (Sh2 R 2).Reduces [1] (Sh1 R)) (r : Fin R) :
    kRowMax Z hred (ix1 r) = rowMax (fun c => Z (ix2 r c)) := by
  unfold kRowMax rowMax
  rw [maximumf_apply]
  have e := Ideal.multiReduction_maximumf_single Z 0xFF800000#32 hred (.inl rfl) rfl (ix1 r)
  have hf : (Z ∘ hred.lift (ix1 r)) = fun c : Fin 2 => Z (ix2 r c) := funext fun k => congrArg Z (lift_col hred r k)
  rw [hf] at e
  exact congrArg (max negInfW) e

/-- The kernel's exponentials of the logits less their row maximum. -/
def kExps (Z : FVec Ideal (Sh2 R 2) .f32) (hred : (Sh2 R 2).Reduces [1] (Sh1 R)) (hc : (Sh1 R).ShapeCasts (Sh2 R 1))
    (hb : (Sh2 R 1).Broadcasts (Sh2 R 2)) : FVec Ideal (Sh2 R 2) .f32 :=
  exp (subf Z (broadcastTo (Sh2 R 2) (shapeCast (Sh2 R 1) (kRowMax Z hred) hc) hb))

theorem kExps_apply (Z : FVec Ideal (Sh2 R 2) .f32) (hred : (Sh2 R 2).Reduces [1] (Sh1 R)) (hc : (Sh1 R).ShapeCasts (Sh2 R 1))
    (hb : (Sh2 R 1).Broadcasts (Sh2 R 2)) (r : Fin R) (c : Fin 2) :
    kExps Z hred hc hb (ix2 r c) = Ideal.exp (Z (ix2 r c) - rowMax (fun c => Z (ix2 r c))) := by
  unfold kExps
  rw [exp_apply, subf_apply, kKeep_apply, kRowMax_apply]

/-- The kernel's softmax of a block of logits. -/
def kSoftmax (Z : FVec Ideal (Sh2 R 2) .f32) (hred : (Sh2 R 2).Reduces [1] (Sh1 R)) (hc : (Sh1 R).ShapeCasts (Sh2 R 1))
    (hb : (Sh2 R 1).Broadcasts (Sh2 R 2)) : FVec Ideal (Sh2 R 2) .f32 :=
  divf (kExps Z hred hc hb)
    (broadcastTo (Sh2 R 2) (shapeCast (Sh2 R 1)
      (multiReduction .add [1] (Sh1 R) (kExps Z hred hc hb) 0x00000000#32 hred (.inl rfl) rfl) hc) hb)

theorem kSoftmax_row (Z : FVec Ideal (Sh2 R 2) .f32) (hred : (Sh2 R 2).Reduces [1] (Sh1 R)) (hc : (Sh1 R).ShapeCasts (Sh2 R 1))
    (hb : (Sh2 R 1).Broadcasts (Sh2 R 2)) (r : Fin R) :
    (fun j : Fin 2 => kSoftmax Z hred hc hb (ix2 r j)) = softmax (fun c => Z (ix2 r c)) := by
  funext j
  unfold kSoftmax softmax
  rw [divf_apply, kKeep_apply, kExps_apply]
  refine congrArg (Ideal.div _) ?_
  refine (Ideal.multiReduction_add_single (kExps Z hred hc hb) 0x00000000#32 hred (.inl rfl) rfl (ix1 r)).trans ?_
  refine Finset.sum_congr rfl fun k _ => ?_
  rw [lift_col, kExps_apply]
  rfl

variable {φx φw : FTy}

/-- The kernel's body on a block of R rows: every layer's result narrowed to bf16 before the next product. -/
def kNet (X : FVec Ideal (Sh2 R 67) φx) (Win : FVec Ideal (Sh2 67 64) φw) (bin : FVec Ideal (Sh1 64) .f32)
    (W1 : FVec Ideal (Sh2 64 64) φw) (b1 : FVec Ideal (Sh1 64) .f32) (W2 : FVec Ideal (Sh2 64 64) φw) (b2 : FVec Ideal (Sh1 64) .f32)
    (Wout : FVec Ideal (Sh2 64 2) φw) (bout : FVec Ideal (Sh1 2) .f32) (hbf : FTy.bits .bf16 < FTy.bits .f32)
    (hc64 : (Sh1 64).ShapeCasts (Sh2 1 64)) (hb64 : (Sh2 1 64).Broadcasts (Sh2 R 64))
    (hc2 : (Sh1 2).ShapeCasts (Sh2 1 2)) (hb2 : (Sh2 1 2).Broadcasts (Sh2 R 2))
    (hred : (Sh2 R 2).Reduces [1] (Sh1 R)) (hc : (Sh1 R).ShapeCasts (Sh2 R 1)) (hb : (Sh2 R 1).Broadcasts (Sh2 R 2)) :
    FVec Ideal (Sh2 R 2) .f32 :=
  kSoftmax
    (kDense (truncf .bf16 (kDense (truncf .bf16 (kRelu (kDense (truncf .bf16 (kRelu (kDense X Win bin hc64 hb64)) hbf)
      W1 b1 hc64 hb64)) hbf) W2 b2 hc64 hb64) hbf) Wout bout hc2 hb2)
    hred hc hb

theorem kNet_row (X : FVec Ideal (Sh2 R 67) φx) (Win : FVec Ideal (Sh2 67 64) φw) (bin : FVec Ideal (Sh1 64) .f32)
    (W1 : FVec Ideal (Sh2 64 64) φw) (b1 : FVec Ideal (Sh1 64) .f32) (W2 : FVec Ideal (Sh2 64 64) φw) (b2 : FVec Ideal (Sh1 64) .f32)
    (Wout : FVec Ideal (Sh2 64 2) φw) (bout : FVec Ideal (Sh1 2) .f32) (hbf : FTy.bits .bf16 < FTy.bits .f32)
    (hc64 : (Sh1 64).ShapeCasts (Sh2 1 64)) (hb64 : (Sh2 1 64).Broadcasts (Sh2 R 64))
    (hc2 : (Sh1 2).ShapeCasts (Sh2 1 2)) (hb2 : (Sh2 1 2).Broadcasts (Sh2 R 2))
    (hred : (Sh2 R 2).Reduces [1] (Sh1 R)) (hc : (Sh1 R).ShapeCasts (Sh2 R 1)) (hb : (Sh2 R 1).Broadcasts (Sh2 R 2)) (r : Fin R) :
    (fun j : Fin 2 => kNet X Win bin W1 b1 W2 b2 Wout bout hbf hc64 hb64 hc2 hb2 hred hc hb (ix2 r j))
      = net (fun k => X (ix2 r k)) (fun k n => Win (ix2 k n)) (fun n => bin (ix1 n)) (fun k n => W1 (ix2 k n)) (fun n => b1 (ix1 n))
          (fun k n => W2 (ix2 k n)) (fun n => b2 (ix1 n)) (fun k n => Wout (ix2 k n)) (fun n => bout (ix1 n)) := by
  unfold kNet net
  rw [kSoftmax_row, kDense_row, truncf_row, kDense_row, truncf_row, kRelu_row, kDense_row, truncf_row, kRelu_row, kDense_row]

end Cert.MlpRow
-- ==== Proof.KernelValue.lean ====
/-
  What the kernel leaves in its result array. The body's one store is the kernel spelling of the network applied to
  the loaded blocks, so read at row r of a block it is the row network of that block's row r (KernelSpelling). Grid
  point t stages rows 10000·t … 10000·t + 9999 of the gathered input and every weight and bias whole, and writes
  back rows 10000·t … of the result: so what point t writes back is block t of ONE array, row e of which is the row
  network of row e of the gathered input. The 200 blocks tile the 2000000 rows, so that array is the result.
-/
import proofs.«118086_j16681652977700_1_alg».proof.Proof.Gen.KernelIdeal.Frame
import proofs.«118086_j16681652977700_1_alg».proof.Proof.KernelSpelling
import Idealize.ShloMosaic.Lib.Pipeline.Value

set_option maxRecDepth 16384

noncomputable section

namespace Cert.KernelIdeal.RowValue

open Cert.KernelIdeal Cert.KernelIdeal.Gen Idealize.ShloMosaic Idealize.ShloMosaic.TcCoe Idealize.SL.Sem
open Idealize.ShloMosaic.ValueIdx
open Idealize.ShloMosaic.Pipeline (Dat)
open Cert.MlpRow

/-! ## The body's store is the kernel spelling of the network -/

theorem pay_eq (v0 : Vec Ideal S10000x67 .bf16) (v2 : Vec Ideal S67x64 .bf16) (v5 : Vec Ideal S64 .f32) (v12 : Vec Ideal S64x64 .bf16)
    (v15 : Vec Ideal S64 .f32) (v22 : Vec Ideal S64x64 .bf16) (v25 : Vec Ideal S64 .f32) (v30 : Vec Ideal S64x2 .bf16) (v33 : Vec Ideal S2 .f32) :
    k0_pay1 (k0_pay2 v0 v2 v5 v12 v15 v22 v25 v30 v33) (k0_pay3 v0 v2 v5 v12 v15 v22 v25 v30 v33)
      = kNet (R := 10000) (φx := .bf16) (φw := .bf16) (shapeCast S10000x67 v0 Facts₀.shapeCasts_S10000x67_S10000x67) (shapeCast S67x64 v2 Facts₀.shapeCasts_S67x64_S67x64) v5
          (shapeCast S64x64 v12 Facts₀.shapeCasts_S64x64_S64x64) v15 (shapeCast S64x64 v22 Facts₀.shapeCasts_S64x64_S64x64) v25
          (shapeCast S64x2 v30 Facts₀.shapeCasts_S64x2_S64x2) v33 Facts₀.bitsLt_bf16_f32 Facts₀.shapeCasts_S64_S1x64
          Facts₀.broadcasts_S1x64_S10000x64 Facts₀.shapeCasts_S2_S1x2 Facts₀.broadcasts_S1x2_S10000x2 Facts₀.reduces_S10000x2_S10000
          Facts₀.shapeCasts_S10000_S10000x1 Facts₀.broadcasts_S10000x1_S10000x2 := rfl

/-- The store read at row r, column j of the block: the row network of the loaded blocks' rows. -/
theorem pay_row (v0 : Vec Ideal S10000x67 .bf16) (v2 : Vec Ideal S67x64 .bf16) (v5 : Vec Ideal S64 .f32) (v12 : Vec Ideal S64x64 .bf16)
    (v15 : Vec Ideal S64 .f32) (v22 : Vec Ideal S64x64 .bf16) (v25 : Vec Ideal S64 .f32) (v30 : Vec Ideal S64x2 .bf16) (v33 : Vec Ideal S2 .f32)
    (r : Fin 10000) (j : Fin 2) :
    k0_pay1 (k0_pay2 v0 v2 v5 v12 v15 v22 v25 v30 v33) (k0_pay3 v0 v2 v5 v12 v15 v22 v25 v30 v33) (ix2 r j)
      = net (fun k => v0 (ix2 r k)) (fun k n => v2 (ix2 k n)) (fun n => v5 (ix1 n)) (fun k n => v12 (ix2 k n)) (fun n => v15 (ix1 n))
          (fun k n => v22 (ix2 k n)) (fun n => v25 (ix1 n)) (fun k n => v30 (ix2 k n)) (fun n => v33 (ix1 n)) j := by
  rw [pay_eq]
  simp only [shapeCast_self]
  exact congrFun (kNet_row (R := 10000) (φx := .bf16) (φw := .bf16) v0 v2 v5 v12 v15 v22 v25 v30 v33
    Facts₀.bitsLt_bf16_f32 Facts₀.shapeCasts_S64_S1x64 Facts₀.broadcasts_S1x64_S10000x64 Facts₀.shapeCasts_S2_S1x2
    Facts₀.broadcasts_S1x2_S10000x2 Facts₀.reduces_S10000x2_S10000 Facts₀.shapeCasts_S10000_S10000x1
    Facts₀.broadcasts_S10000x1_S10000x2 r) j

/-! ## The arrays the region finds, and the blocks a grid point stages, at their literal types -/

variable (m : (ℓ : Loc nD τ sig) → Buf (Elt Ideal) ℓ) (ρ : Dev nD → PrngReg)

/-- The gathered input (2000000 rows of 64 features and 3 coordinate differences), as the region finds it. -/
abbrev xArr (c : Dev nD) : Vec Ideal S2000000x67 .bf16 := V m c main_v24
abbrev wInArr (c : Dev nD) : Vec Ideal S67x64 .bf16 := V m c main_v25
abbrev bInArr (c : Dev nD) : Vec Ideal S64 .f32 := V m c main_arg7
abbrev w1Arr (c : Dev nD) : Vec Ideal S64x64 .bf16 := V m c main_v26
abbrev b1Arr (c : Dev nD) : Vec Ideal S64 .f32 := V m c main_arg9
abbrev w2Arr (c : Dev nD) : Vec Ideal S64x64 .bf16 := V m c main_v27
abbrev b2Arr (c : Dev nD) : Vec Ideal S64 .f32 := V m c main_arg11
abbrev wOutArr (c : Dev nD) : Vec Ideal S64x2 .bf16 := V m c main_v28
abbrev bOutArr (c : Dev nD) : Vec Ideal S2 .f32 := V m c main_arg13

abbrev xBlk (c : Dev nD) (t : Fin cfg0.N) : Vec Ideal S10000x67 .bf16 := iblk m c 0 t
abbrev wInBlk (c : Dev nD) (t : Fin cfg0.N) : Vec Ideal S67x64 .bf16 := iblk m c 1 t
abbrev bInBlk (c : Dev nD) (t : Fin cfg0.N) : Vec Ideal S64 .f32 := iblk m c 2 t
abbrev w1Blk (c : Dev nD) (t : Fin cfg0.N) : Vec Ideal S64x64 .bf16 := iblk m c 3 t
abbrev b1Blk (c : Dev nD) (t : Fin cfg0.N) : Vec Ideal S64 .f32 := iblk m c 4 t
abbrev w2Blk (c : Dev nD) (t : Fin cfg0.N) : Vec Ideal S64x64 .bf16 := iblk m c 5 t
abbrev b2Blk (c : Dev nD) (t : Fin cfg0.N) : Vec Ideal S64 .f32 := iblk m c 6 t
abbrev wOutBlk (c : Dev nD) (t : Fin cfg0.N) : Vec Ideal S64x2 .bf16 := iblk m c 7 t
abbrev bOutBlk (c : Dev nD) (t : Fin cfg0.N) : Vec Ideal S2 .f32 := iblk m c 8 t

/-- Row e of the result: the row network of row e of the gathered input, with the weights and biases as the region finds them. -/
def rowOut (c : Dev nD) (e : Fin 2000000) (j : Fin 2) : EReal :=
  net (fun k => xArr m c (ix2 e k)) (fun k n => wInArr m c (ix2 k n)) (fun n => bInArr m c (ix1 n)) (fun k n => w1Arr m c (ix2 k n))
    (fun n => b1Arr m c (ix1 n)) (fun k n => w2Arr m c (ix2 k n)) (fun n => b2Arr m c (ix1 n)) (fun k n => wOutArr m c (ix2 k n))
    (fun n => bOutArr m c (ix1 n)) j

/-- The whole result array. -/
def outArr (c : Dev nD) : S2000000x2.Idx → EReal :=
  fun i => rowOut m c ⟨(i 0).val, (i 0).isLt⟩ ⟨(i 1).val, (i 1).isLt⟩

theorem outArr_ix2 (c : Dev nD) (e : Fin 2000000) (j : Fin 2) : outArr m c (ix2 e j) = rowOut m c e j := rfl

/-! ## The index maps, decided over the 200 grid points -/

theorem hz2 : (![0, 0] : Fin 2 → Nat) = fun _ => 0 := funext fun a => by fin_cases a <;> rfl
theorem hz1 : (![0] : Fin 1 → Nat) = fun _ => 0 := funext fun a => by fin_cases a <;> rfl

/-- The input block and the result block move together down the rows, one block a point; every other window stays at its whole array. -/
theorem idx_facts : ∀ t : Fin cfg0.N,
    win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0
    ∧ win0_7.index t (0 : Fin 2) = 0 ∧ win0_7.index t (1 : Fin 2) = 0 ∧ win0_8.index t (0 : Fin 1) = 0 :=
  (by decide +kernel : ∀ t : Fin grid0.N, _)

/-! ## Each staged block is its array read where the block lies -/

theorem xBlk_apply (c : Dev nD) (t : Fin cfg0.N) (r : Fin 10000) (k : Fin 67) (e : Fin 2000000) (he : e.val = t.val * 10000 + r.val) :
    xBlk m c t (ix2 r k) = xArr m c (ix2 e k) := by
  obtain ⟨e0, e1, -⟩ := idx_facts t
  show V m c main_v24 (((cfg0.win 0).blk t).view.emb (ix2 r k)) = V m c main_v24 (ix2 e k)
  refine congrArg _ (funext fun a => Fin.ext ?_)
  match a with
  | ⟨0, _⟩ => show win0_0.index t (0 : Fin 2) * 10000 + 1 * r.val = e.val; omega
  | ⟨1, _⟩ => show win0_0.index t (1 : Fin 2) * 67 + 1 * k.val = k.val; omega

theorem wInBlk_eq (c : Dev nD) (t : Fin cfg0.N) : wInBlk m c t = wInArr m c := by
  obtain ⟨-, -, -, -, e0, e1, -⟩ := idx_facts t
  funext i
  show V m c main_v25 (((cfg0.win 1).blk t).view.emb i) = V m c main_v25 i
  refine congrArg _ (funext fun a => Fin.ext ?_)
  match a with
  | ⟨0, _⟩ => show win0_1.index t (0 : Fin 2) * 67 + 1 * (i 0).val = (i 0).val; omega
  | ⟨1, _⟩ => show win0_1.index t (1 : Fin 2) * 64 + 1 * (i 1).val = (i 1).val; omega

theorem bInBlk_eq (c : Dev nD) (t : Fin cfg0.N) : bInBlk m c t = bInArr m c := by
  obtain ⟨-, -, -, -, -, -, e0, -⟩ := idx_facts t
  funext i
  show V m c main_arg7 (((cfg0.win 2).blk t).view.emb i) = V m c main_arg7 i
  refine congrArg _ (funext fun a => Fin.ext ?_)
  match a with
  | ⟨0, _⟩ => show win0_2.index t (0 : Fin 1) * 64 + 1 * (i 0).val = (i 0).val; omega

theorem w1Blk_eq (c : Dev nD) (t : Fin cfg0.N) : w1Blk m c t = w1Arr m c := by
  obtain ⟨-, -, -, -, -, -, -, e0, e1, -⟩ := idx_facts t
  funext i
  show V m c main_v26 (((cfg0.win 3).blk t).view.emb i) = V m c main_v26 i
  refine congrArg _ (funext fun a => Fin.ext ?_)
  match a with
  | ⟨0, _⟩ => show win0_3.index t (0 : Fin 2) * 64 + 1 * (i 0).val = (i 0).val; omega
  | ⟨1, _⟩ => show win0_3.index t (1 : Fin 2) * 64 + 1 * (i 1).val = (i 1).val; omega

theorem b1Blk_eq (c : Dev nD) (t : Fin cfg0.N) : b1Blk m c t = b1Arr m c := by
  obtain ⟨-, -, -, -, -, -, -, -, -, e0, -⟩ := idx_facts t
  funext i
  show V m c main_arg9 (((cfg0.win 4).blk t).view.emb i) = V m c main_arg9 i
  refine congrArg _ (funext fun a => Fin.ext ?_)
  match a with
  | ⟨0, _⟩ => show win0_4.index t (0 : Fin 1) * 64 + 1 * (i 0).val = (i 0).val; omega

theorem w2Blk_eq (c : Dev nD) (t : Fin cfg0.N) : w2Blk m c t = w2Arr m c := by
  obtain ⟨-, -, -, -, -, -, -, -, -, -, e0, e1, -⟩ := idx_facts t
  funext i
  show V m c main_v27 (((cfg0.win 5).blk t).view.emb i) = V m c main_v27 i
  refine congrArg _ (funext fun a => Fin.ext ?_)
  match a with
  | ⟨0, _⟩ => show win0_5.index t (0 : Fin 2) * 64 + 1 * (i 0).val = (i 0).val; omega
  | ⟨1, _⟩ => show win0_5.index t (1 : Fin 2) * 64 + 1 * (i 1).val = (i 1).val; omega

theorem b2Blk_eq (c : Dev nD) (t : Fin cfg0.N) : b2Blk m c t = b2Arr m c := by
  obtain ⟨-, -, -, -, -, -, -, -, -, -, -, -, e0, -⟩ := idx_facts t
  funext i
  show V m c main_arg11 (((cfg0.win 6).blk t).view.emb i) = V m c main_arg11 i
  refine congrArg _ (funext fun a => Fin.ext ?_)
  match a with
  | ⟨0, _⟩ => show win0_6.index t (0 : Fin 1) * 64 + 1 * (i 0).val = (i 0).val; omega

theorem wOutBlk_eq (c : Dev nD) (t : Fin cfg0.N) : wOutBlk m c t = wOutArr m c := by
  obtain ⟨-, -, -, -, -, -, -, -, -, -, -, -, -, e0, e1, -⟩ := idx_facts t
  funext i
  show V m c main_v28 (((cfg0.win 7).blk t).view.emb i) = V m c main_v28 i
  refine congrArg _ (funext fun a => Fin.ext ?_)
  match a with
  | ⟨0, _⟩ => show win0_7.index t (0 : Fin 2) * 64 + 1 * (i 0).val = (i 0).val; omega
  | ⟨1, _⟩ => show win0_7.index t (1 : Fin 2) * 2 + 1 * (i 1).val = (i 1).val; omega

theorem bOutBlk_eq (c : Dev nD) (t : Fin cfg0.N) : bOutBlk m c t = bOutArr m c := by
  obtain ⟨-, -, -, -, -, -, -, -, -, -, -, -, -, -, -, e0⟩ := idx_facts t
  funext i
  show V m c main_arg13 (((cfg0.win 8).blk t).view.emb i) = V m c main_arg13 i
  refine congrArg _ (funext fun a => Fin.ext ?_)
  match a with
  | ⟨0, _⟩ => show win0_8.index t (0 : Fin 1) * 2 + 1 * (i 0).val = (i 0).val; omega

/-! ## What a point writes back is its block of the result array -/

/-- The store of point t at row r of the block is row 10000·t + r of the result. -/
theorem store_row (c : Dev nD) (t : Fin cfg0.N) (r : Fin 10000) (j : Fin 2) (e : Fin 2000000) (he : e.val = t.val * 10000 + r.val) :
    k0_pay1 (k0_pay2 (xBlk m c t) (wInBlk m c t) (bInBlk m c t) (w1Blk m c t) (b1Blk m c t) (w2Blk m c t) (b2Blk m c t) (wOutBlk m c t) (bOutBlk m c t))
        (k0_pay3 (xBlk m c t) (wInBlk m c t) (bInBlk m c t) (w1Blk m c t) (b1Blk m c t) (w2Blk m c t) (b2Blk m c t) (wOutBlk m c t) (bOutBlk m c t))
        (ix2 r j)
      = rowOut m c e j := by
  refine (pay_row (xBlk m c t) (wInBlk m c t) (bInBlk m c t) (w1Blk m c t) (b1Blk m c t) (w2Blk m c t) (b2Blk m c t) (wOutBlk m c t)
    (bOutBlk m c t) r j).trans ?_
  have hx : (fun k => xBlk m c t (ix2 r k)) = fun k => xArr m c (ix2 e k) := funext fun k => xBlk_apply m c t r k e he
  rw [hx, wInBlk_eq, bInBlk_eq, w1Blk_eq, b1Blk_eq, w2Blk_eq, b2Blk_eq, wOutBlk_eq, bOutBlk_eq]
  rfl

/-- WHAT POINT t WRITES BACK is block t of the result array. -/
theorem flushed9_eq (c : Dev nD) (t : Fin cfg0.N) :
    (dats m 0 c).flushed 9 t = ((cfg0.win 9).blk t).view.read (Elt Ideal) (outArr m c) := by
  show (cfg0.win 9).cut (grid0.coords t) ((dats m 0 c).after 9 t) = _
  rw [after0_9]
  unfold out0_9
  rw [View.canon_unit_zero hz2]
  simp only [View.ld_unit_zero (S := S10000x67) hz2, View.ld_unit_zero (S := S67x64) hz2, View.ld_unit_zero (S := S64) hz1,
    View.ld_unit_zero (S := S64x64) hz2, View.ld_unit_zero (S := S64x2) hz2, View.ld_unit_zero (S := S2) hz1]
  obtain ⟨-, -, e0, e1, -⟩ := idx_facts t
  refine funext fun (y : S10000x2.Idx) => ?_
  obtain ⟨p, q, rfl⟩ : ∃ (p : Fin 10000) (q : Fin 2), y = ix2 p q := ⟨y 0, y 1, eq_ix2 y⟩
  have ht : t.val < 200 := by have hN : cfg0.N = 200 := N_0; have := t.isLt; omega
  have hemb : ((cfg0.win 9).blk t).view.emb (ix2 p q) = (ix2 (⟨t.val * 10000 + p.val, by omega⟩ : Fin 2000000) q : S2000000x2.Idx) := by
    funext a; apply Fin.ext
    match a with
    | ⟨0, _⟩ => show win0_9.index t (0 : Fin 2) * 10000 + 1 * p.val = t.val * 10000 + p.val; omega
    | ⟨1, _⟩ => show win0_9.index t (1 : Fin 2) * 2 + 1 * q.val = q.val; omega
  show k0_pay1 (k0_pay2 (xBlk m c t) (wInBlk m c t) (bInBlk m c t) (w1Blk m c t) (b1Blk m c t) (w2Blk m c t) (b2Blk m c t) (wOutBlk m c t) (bOutBlk m c t))
        (k0_pay3 (xBlk m c t) (wInBlk m c t) (bInBlk m c t) (w1Blk m c t) (b1Blk m c t) (w2Blk m c t) (b2Blk m c t) (wOutBlk m c t) (bOutBlk m c t))
        (ix2 p q)
      = outArr m c (((cfg0.win 9).blk t).view.emb (ix2 p q))
  rw [hemb, outArr_ix2]
  exact store_row m c t p q _ rfl

/-- An index of the result array is in point t's block iff each coordinate is in the block's range on its axis. -/
theorem mem_blk9 (t : Fin cfg0.N) (i : S2000000x2.Idx) :
    i ∈ ((cfg0.win 9).blk t).view.set ↔ ∀ a : Fin 2, win0_9.index t a * S10000x2.size a ≤ (i a).val ∧ (i a).val < win0_9.index t a * S10000x2.size a + S10000x2.size a := by
  show i ∈ ((View.whole main_v29).slice (win0_9.rect t)).set ↔ _
  rw [View.set_slice_whole, Rect.mem_set_unit]
  exact Iff.rfl

/-- The 200 blocks of 10000 rows tile the 2000000 rows: row e is in block e / 10000. -/
theorem cover9 (i : S2000000x2.Idx) : ∃ t : Fin cfg0.N, (cfg0.win 9).flush t = true ∧ i ∈ ((cfg0.win 9).blk t).view.set := by
  have hi0 : (i 0).val < 2000000 := (i 0).isLt
  have hi1 : (i 1).val < 2 := (i 1).isLt
  have hN : grid0.N = 200 := N_0
  let t : Fin cfg0.N := ⟨(i 0).val / 10000, by show (i 0).val / 10000 < grid0.N; omega⟩
  obtain ⟨-, -, e0, e1, -⟩ := idx_facts t
  have htv : t.val = (i 0).val / 10000 := rfl
  refine ⟨t, flush0_9 t, ?_⟩
  rw [mem_blk9]
  intro a
  match a with
  | ⟨0, _⟩ => show win0_9.index t (0 : Fin 2) * 10000 ≤ (i 0).val ∧ (i 0).val < win0_9.index t (0 : Fin 2) * 10000 + 10000; omega
  | ⟨1, _⟩ => show win0_9.index t (1 : Fin 2) * 2 ≤ (i 1).val ∧ (i 1).val < win0_9.index t (1 : Fin 2) * 2 + 2; omega

/-- THE RESULT ARRAY after the run. -/
theorem final9 (c : Dev nD) : (dats m 0 c).arrAt 9 cfg0.N = outArr m c :=
  (dats m 0 c).arrAt_eq_of_cover 9 (outArr m c) (fun t _ => flushed9_eq m c t) cover9

end Cert.KernelIdeal.RowValue
-- ==== Proof.KernelRun.lean ====
/-
  The kernel program's run, read. Before the region the host gathers each edge's source features and the difference
  of its two end points' coordinates and joins them into the 67-column input, and narrows the weights; after it, it
  gathers the labels. A negative index has the table's length added before each gather. At the extended reals a
  narrowing changes nothing, so the arrays the region finds are plain functions of the arguments.
-/
import proofs.«118086_j16681652977700_1_alg».proof.Proof.KernelValue
import Idealize.ShloMosaic.Lib.StableHlo.Run

set_option maxRecDepth 16384

noncomputable section

namespace Cert.KernelIdeal.RowValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.MlpRow

variable (m : (ℓ : Loc nD τ sig) → Buf (Elt Ideal) ℓ) (ρ : Dev nD → PrngReg)

/-- An index vector with the table's length 100000 added where it is negative, as a column. -/
def wrapped (ix : IVec S2000000 32) : IVec S2000000x1 32 :=
  broadcastInDim S2000000x1 ![0] Facts₀.bcast_S2000000_S2000000x1_0
    (select (cmpi .slt ix (broadcastInDim S2000000 ![] Facts₀.bcast_S_S2000000 (constantI S_ 32 0#32)))
      (addi ix (broadcastInDim S2000000 ![] Facts₀.bcast_S_S2000000 (constantI S_ 32 100000#32))) ix)

/-- The labels the program returns: the label table gathered at the wrapped row indices. -/
def labelsOf (lab : IVec S100000 32) (row : IVec S2000000 32) : IVec S2000000 32 :=
  Host.gather gather_S100000_S2000000x1_S2000000_n_0_n_n_0_1_1 lab (wrapped row)

theorem tail_labels (c : Dev nD) :
    Pipeline.afterTail₀ cfgs (dats m) 0 (V0 m) [hostOps1] c main_v36
      = labelsOf (m ((c.tc : Thread nD τ).loc main_arg3)) (m ((c.tc : Thread nD τ).loc main_arg4)) := by
  unfold Pipeline.afterTail₀
  show StableHlo.after hostOps1 _ (Proc.devRef .tc main_v36) = _
  after_results
  rw [Pipeline.withArrays_of_ne _ c (V0 m c) _ main_arg3 (by exact (by decide : ∀ w, Pipeline.arrRef spec0 w ≠ main_arg3)),
    Pipeline.withArrays_of_ne _ c (V0 m c) _ main_arg4 (by exact (by decide : ∀ w, Pipeline.arrRef spec0 w ≠ main_arg4))]
  show Host.gather gather_S100000_S2000000x1_S2000000_n_0_n_n_0_1_1 (V m c main_arg3)
      (broadcastInDim S2000000x1 ![0] Facts₀.bcast_S2000000_S2000000x1_0
        (select (cmpi .slt (V m c main_arg4) (broadcastInDim S2000000 ![] Facts₀.bcast_S_S2000000 (constantI S_ 32 0#32)))
          (addi (V m c main_arg4) (broadcastInDim S2000000 ![] Facts₀.bcast_S_S2000000 (constantI S_ 32 100000#32))) (V m c main_arg4))) = _
  rw [V_main_arg3, V_main_arg4]
  rfl

/-! ## The arrays the region finds, as functions of the arguments -/

/-- The 67-column input: each edge's source features beside the difference of its two end points' coordinates. -/
def gathered (pcd : FVec Ideal S100000x3 .f32) (feats : FVec Ideal S100000x64 .f32) (pts : FVec Ideal S100000x3 .f32)
    (row col : IVec S2000000 32) : FVec Ideal S2000000x67 .bf16 :=
  concatenate S2000000x67 1
    [⟨S2000000x64, (Host.gather gather_S100000x64_S2000000x1_S2000000x64_1_0_n_n_0_1_164
        (truncf (F := Ideal) .bf16 feats Facts₀.bitsLt_bf16_f32) (wrapped col) : FVec Ideal S2000000x64 .bf16)⟩,
     ⟨S2000000x3, (truncf (F := Ideal) .bf16
        (subf (F := Ideal) (Host.gather gather_S100000x3_S2000000x1_S2000000x3_1_0_n_n_0_1_13 pts (wrapped row))
          (Host.gather gather_S100000x3_S2000000x1_S2000000x3_1_0_n_n_0_1_13 pcd (wrapped col))) Facts₀.bitsLt_bf16_f32 : FVec Ideal S2000000x3 .bf16)⟩]
    Facts₀.concatenates_S2000000x64_S2000000x3_S2000000x67_d1

set_option maxHeartbeats 8000000 in
theorem xArr_eq (c : Dev nD) :
    xArr m c = gathered (m ((c.tc : Thread nD τ).loc main_arg0)) (m ((c.tc : Thread nD τ).loc main_arg1))
      (m ((c.tc : Thread nD τ).loc main_arg2)) (m ((c.tc : Thread nD τ).loc main_arg4)) (m ((c.tc : Thread nD τ).loc main_arg5)) := by
  show StableHlo.after hostOps0 (fun b => m (c, b)) (Proc.devRef .tc main_v24) = _
  after_results_simp
  rfl

theorem wInArr_eq (c : Dev nD) : wInArr m c = m ((c.tc : Thread nD τ).loc main_arg6) := by
  show StableHlo.after hostOps0 (fun b => m (c, b)) (Proc.devRef .tc main_v25) = _
  after_results
  rfl
theorem w1Arr_eq (c : Dev nD) : w1Arr m c = m ((c.tc : Thread nD τ).loc main_arg8) := by
  show StableHlo.after hostOps0 (fun b => m (c, b)) (Proc.devRef .tc main_v26) = _
  after_results
  rfl
theorem w2Arr_eq (c : Dev nD) : w2Arr m c = m ((c.tc : Thread nD τ).loc main_arg10) := by
  show StableHlo.after hostOps0 (fun b => m (c, b)) (Proc.devRef .tc main_v27) = _
  after_results
  rfl
theorem wOutArr_eq (c : Dev nD) : wOutArr m c = m ((c.tc : Thread nD τ).loc main_arg12) := by
  show StableHlo.after hostOps0 (fun b => m (c, b)) (Proc.devRef .tc main_v28) = _
  after_results
  rfl
theorem bInArr_eq (c : Dev nD) : bInArr m c = m ((c.tc : Thread nD τ).loc main_arg7) := V_main_arg7 m c
theorem b1Arr_eq (c : Dev nD) : b1Arr m c = m ((c.tc : Thread nD τ).loc main_arg9) := V_main_arg9 m c
theorem b2Arr_eq (c : Dev nD) : b2Arr m c = m ((c.tc : Thread nD τ).loc main_arg11) := V_main_arg11 m c
theorem bOutArr_eq (c : Dev nD) : bOutArr m c = m ((c.tc : Thread nD τ).loc main_arg13) := V_main_arg13 m c

/-! ## The run -/

/-- Every weakly fair execution of the program ends with the result array at the row network of the gathered input, the labels
    gathered, and the arguments as launched. -/
theorem run : θ_run defs (onTc (τ := τ) (main (F := Ideal))) ⟨m, fun _ => 0, ρ⟩ fun r => ∀ c : Dev nD,
      r.2.mem ((c.tc : Thread nD τ).loc main_v29) = outArr m c
      ∧ r.2.mem ((c.tc : Thread nD τ).loc main_v36) = labelsOf (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨((h c).1 9).trans (final9 m c),
      ((h c).2 main_v36 (Pipeline.mem_restRefs_of main_v36 (by decide) (by decide))).trans (tail_labels m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).1 2).trans (((dats m 0 c).arrAt_in 2 rfl _).trans ((A_eq m c 2).trans (V_main_arg7 m c))),
      ((h c).2 main_arg8 (Pipeline.mem_restRefs_of main_arg8 (by decide) (by decide))).trans (W_main_arg8 m (dats m) c),
      ((h c).1 4).trans (((dats m 0 c).arrAt_in 4 rfl _).trans ((A_eq m c 4).trans (V_main_arg9 m c))),
      ((h c).2 main_arg10 (Pipeline.mem_restRefs_of main_arg10 (by decide) (by decide))).trans (W_main_arg10 m (dats m) c),
      ((h c).1 6).trans (((dats m 0 c).arrAt_in 6 rfl _).trans ((A_eq m c 6).trans (V_main_arg11 m c))),
      ((h c).2 main_arg12 (Pipeline.mem_restRefs_of main_arg12 (by decide) (by decide))).trans (W_main_arg12 m (dats m) c),
      ((h c).1 8).trans (((dats m 0 c).arrAt_in 8 rfl _).trans ((A_eq m c 8).trans (V_main_arg13 m c)))⟩)
    (run_main m ρ)

end Cert.KernelIdeal.RowValue
-- ==== Proof.HostSpelling.lean ====
/-
  The reference's spelling of the network on all R rows, and that read along row r it is the row network of RowNet.
  The dense layers and the rectifier are LibDenseRows'; here is the softmax — the host's maximum-reduce (from minus
  infinity) and its sum of the exponentials over the two columns, each broadcast back in two steps; the sum's initial
  zero drops out — and the composition of the layers. Stated for any number of rows R.
-/
import proofs.«118086_j16681652977700_1_alg».proof.Proof.RowNet
import Idealize.ShloMosaic.Lib.Pipeline.Value

noncomputable section

namespace Cert.MlpRow

open Idealize.ShloMosaic Idealize.ShloMosaic.ValueIdx Cert.LibDenseRows

variable {R K N : ℕ} {φ₁ φ₂ : FTy}

/-- The same in the reference's spelling: two broadcasts in dimensions. -/
theorem hKeep_apply {α : Type} (v : (Sh1 R).Idx → α) (hb1 : (Sh1 R).BroadcastsInDim (Sh2 R 1) ![0])
    (hb2 : (Sh2 R 1).BroadcastsInDim (Sh2 R 2) ![0, 1]) (r : Fin R) (c : Fin 2) :
    broadcastInDim (Sh2 R 2) ![0, 1] hb2 (broadcastInDim (Sh2 R 1) ![0] hb1 v) (ix2 r c) = v (ix1 r) := by
  rw [broadcastInDim_apply ![0, 1] hb2 _ (ix2 r c) (ix2 r (0 : Fin 1)) (fun a => by
    match a with
    | ⟨0, _⟩ =>
      show r.val = if R = 1 then 0 else r.val
      split
      · have := r.isLt; omega
      · rfl
    | ⟨1, _⟩ =>
      show 0 = if (1 : ℕ) = 1 then 0 else c.val
      rw [if_pos rfl])]
  rw [broadcastInDim_apply ![0] hb1 v (ix2 r (0 : Fin 1)) (ix1 r) (fun a => by
    match a with
    | ⟨0, _⟩ =>
      show r.val = if R = 1 then 0 else r.val
      split
      · have := r.isLt; omega
      · rfl)]

/-- The reference's row maximum: a host reduce with a maximum body from minus infinity, joined with minus infinity once more. -/
def hRowMax (Z : FVec Ideal (Sh2 R 2) .f32) (hr : (Sh2 R 2).ReducesTo [1] (Sh1 R)) (h0 : 0 < Sh0.numel)
    (hb0 : Sh0.BroadcastsInDim (Sh1 R) ![]) : FVec Ideal (Sh1 R) .f32 :=
  maximumf (broadcastInDim (Sh1 R) ![] hb0 (constant Sh0 .f32 0xFF800000#32))
    (Host.reduce FloatOps.maximumf Z (constant Sh0 .f32 0xFF800000#32) hr h0)

theorem hRowMax_apply (Z : FVec Ideal (Sh2 R 2) .f32) (hr : (Sh2 R 2).ReducesTo [1] (Sh1 R)) (h0 : 0 < Sh0.numel)
    (hb0 : Sh0.BroadcastsInDim (Sh1 R) ![]) (hred : (Sh2 R 2).Reduces [1] (Sh1 R)) (r : Fin R) :
    hRowMax Z hr h0 hb0 (ix1 r) = rowMax (fun c => Z (ix2 r c)) := by
  unfold hRowMax rowMax
  rw [maximumf_apply, broadcastInDim_apply ![] hb0 _ (ix1 r) ix0 (fun a => a.elim0),
    Host.reduce_eq_fold_single FloatOps.maximumf Z _ hr hred h0]
  have hf : (Z ∘ hred.lift (ix1 r)) = fun c : Fin 2 => Z (ix2 r c) := funext fun k => congrArg Z (lift_col hred r k)
  rw [hf]
  rfl

/-- The reference's exponentials of the logits less their row maximum. -/
def hExps (Z : FVec Ideal (Sh2 R 2) .f32) (hr : (Sh2 R 2).ReducesTo [1] (Sh1 R)) (h0 : 0 < Sh0.numel)
    (hb0 : Sh0.BroadcastsInDim (Sh1 R) ![]) (hb1 : (Sh1 R).BroadcastsInDim (Sh2 R 1) ![0])
    (hb2 : (Sh2 R 1).BroadcastsInDim (Sh2 R 2) ![0, 1]) : FVec Ideal (Sh2 R 2) .f32 :=
  Host.exp (subf Z (broadcastInDim (Sh2 R 2) ![0, 1] hb2 (broadcastInDim (Sh2 R 1) ![0] hb1 (hRowMax Z hr h0 hb0))))

theorem hExps_apply (Z : FVec Ideal (Sh2 R 2) .f32) (hr : (Sh2 R 2).ReducesTo [1] (Sh1 R)) (h0 : 0 < Sh0.numel)
    (hb0 : Sh0.BroadcastsInDim (Sh1 R) ![]) (hb1 : (Sh1 R).BroadcastsInDim (Sh2 R 1) ![0])
    (hb2 : (Sh2 R 1).BroadcastsInDim (Sh2 R 2) ![0, 1]) (hred : (Sh2 R 2).Reduces [1] (Sh1 R)) (r : Fin R) (c : Fin 2) :
    hExps Z hr h0 hb0 hb1 hb2 (ix2 r c) = Ideal.exp (Z (ix2 r c) - rowMax (fun c => Z (ix2 r c))) := by
  unfold hExps
  rw [hostExp_apply, subf_apply, hKeep_apply, hRowMax_apply Z hr h0 hb0 hred]

/-- The reference's softmax of all the logits. -/
def hSoftmax (Z : FVec Ideal (Sh2 R 2) .f32) (hr : (Sh2 R 2).ReducesTo [1] (Sh1 R)) (h0 : 0 < Sh0.numel)
    (hb0 : Sh0.BroadcastsInDim (Sh1 R) ![]) (hb1 : (Sh1 R).BroadcastsInDim (Sh2 R 1) ![0])
    (hb2 : (Sh2 R 1).BroadcastsInDim (Sh2 R 2) ![0, 1]) : FVec Ideal (Sh2 R 2) .f32 :=
  Host.divf (hExps Z hr h0 hb0 hb1 hb2)
    (broadcastInDim (Sh2 R 2) ![0, 1] hb2 (broadcastInDim (Sh2 R 1) ![0] hb1
      (Host.reduceAdd (hExps Z hr h0 hb0 hb1 hb2) (constant Sh0 .f32 0x00000000#32) hr h0)))

theorem hSoftmax_row (Z : FVec Ideal (Sh2 R 2) .f32) (hr : (Sh2 R 2).ReducesTo [1] (Sh1 R)) (h0 : 0 < Sh0.numel)
    (hb0 : Sh0.BroadcastsInDim (Sh1 R) ![]) (hb1 : (Sh1 R).BroadcastsInDim (Sh2 R 1) ![0])
    (hb2 : (Sh2 R 1).BroadcastsInDim (Sh2 R 2) ![0, 1]) (hred : (Sh2 R 2).Reduces [1] (Sh1 R)) (r : Fin R) :
    (fun j : Fin 2 => hSoftmax Z hr h0 hb0 hb1 hb2 (ix2 r j)) = softmax (fun c => Z (ix2 r c)) := by
  funext j
  unfold hSoftmax softmax
  rw [hostDivf_apply, hKeep_apply, hExps_apply Z hr h0 hb0 hb1 hb2 hred]
  refine congrArg _ ?_
  show Ideal.hostReduceAdd hr (hExps Z hr h0 hb0 hb1 hb2) (Ideal.ofBits .f32 0x00000000#32) (ix1 r) = _
  rw [Ideal.hostReduceAdd_single hr hred, Ideal.ofBits_zero_f32, zero_add]
  refine Finset.sum_congr rfl fun k _ => ?_
  rw [lift_col, hExps_apply Z hr h0 hb0 hb1 hb2 hred]
  rfl

variable {φx φw : FTy}

/-- The reference's spelling on all R rows. -/
def hNet (X : FVec Ideal (Sh2 R 67) φx) (Win : FVec Ideal (Sh2 67 64) φw) (bin : FVec Ideal (Sh1 64) .f32)
    (W1 : FVec Ideal (Sh2 64 64) φw) (b1 : FVec Ideal (Sh1 64) .f32) (W2 : FVec Ideal (Sh2 64 64) φw) (b2 : FVec Ideal (Sh1 64) .f32)
    (Wout : FVec Ideal (Sh2 64 2) φw) (bout : FVec Ideal (Sh1 2) .f32)
    (hd64 : (Sh1 64).BroadcastsInDim (Sh2 1 64) ![1]) (hD64 : (Sh2 1 64).BroadcastsInDim (Sh2 R 64) ![0, 1])
    (hd2 : (Sh1 2).BroadcastsInDim (Sh2 1 2) ![1]) (hD2 : (Sh2 1 2).BroadcastsInDim (Sh2 R 2) ![0, 1])
    (hz : Sh0.BroadcastsInDim (Sh2 R 64) ![])
    (hr : (Sh2 R 2).ReducesTo [1] (Sh1 R)) (h0 : 0 < Sh0.numel) (hb0 : Sh0.BroadcastsInDim (Sh1 R) ![])
    (hb1 : (Sh1 R).BroadcastsInDim (Sh2 R 1) ![0]) (hb2 : (Sh2 R 1).BroadcastsInDim (Sh2 R 2) ![0, 1]) :
    FVec Ideal (Sh2 R 2) .f32 :=
  hSoftmax
    (hDense (hDense (hRelu (hDense (hRelu (hDense X Win bin hd64 hD64) hz) W1 b1 hd64 hD64) hz) W2 b2 hd64 hD64) Wout bout hd2 hD2)
    hr h0 hb0 hb1 hb2

theorem hNet_row (X : FVec Ideal (Sh2 R 67) φx) (Win : FVec Ideal (Sh2 67 64) φw) (bin : FVec Ideal (Sh1 64) .f32)
    (W1 : FVec Ideal (Sh2 64 64) φw) (b1 : FVec Ideal (Sh1 64) .f32) (W2 : FVec Ideal (Sh2 64 64) φw) (b2 : FVec Ideal (Sh1 64) .f32)
    (Wout : FVec Ideal (Sh2 64 2) φw) (bout : FVec Ideal (Sh1 2) .f32)
    (hd64 : (Sh1 64).BroadcastsInDim (Sh2 1 64) ![1]) (hD64 : (Sh2 1 64).BroadcastsInDim (Sh2 R 64) ![0, 1])
    (hd2 : (Sh1 2).BroadcastsInDim (Sh2 1 2) ![1]) (hD2 : (Sh2 1 2).BroadcastsInDim (Sh2 R 2) ![0, 1])
    (hz : Sh0.BroadcastsInDim (Sh2 R 64) ![])
    (hr : (Sh2 R 2).ReducesTo [1] (Sh1 R)) (h0 : 0 < Sh0.numel) (hb0 : Sh0.BroadcastsInDim (Sh1 R) ![])
    (hb1 : (Sh1 R).BroadcastsInDim (Sh2 R 1) ![0]) (hb2 : (Sh2 R 1).BroadcastsInDim (Sh2 R 2) ![0, 1])
    (hred : (Sh2 R 2).Reduces [1] (Sh1 R)) (r : Fin R) :
    (fun j : Fin 2 => hNet X Win bin W1 b1 W2 b2 Wout bout hd64 hD64 hd2 hD2 hz hr h0 hb0 hb1 hb2 (ix2 r j))
      = net (fun k => X (ix2 r k)) (fun k n => Win (ix2 k n)) (fun n => bin (ix1 n)) (fun k n => W1 (ix2 k n)) (fun n => b1 (ix1 n))
          (fun k n => W2 (ix2 k n)) (fun n => b2 (ix1 n)) (fun k n => Wout (ix2 k n)) (fun n => bout (ix1 n)) := by
  unfold hNet net
  rw [hSoftmax_row _ hr h0 hb0 hb1 hb2 hred, hDense_row, hDense_row, hRelu_row, hDense_row, hRelu_row, hDense_row]

end Cert.MlpRow
-- ==== Proof.RefValue.lean ====
/-
  The reference's result, read. Its run ends with the result at one composed term of the arguments; that term is the
  reference spelling of the network (HostSpelling) applied to the gathered input — each edge's source features beside
  the difference of its two end points' coordinates — and the weights and biases as given. So row e of the result is
  the row network of row e of the gathered input.
-/
import proofs.«118086_j16681652977700_1_alg».proof.Proof.Gen.ReferenceIdeal.Run
import proofs.«118086_j16681652977700_1_alg».proof.Proof.HostSpelling

set_option maxRecDepth 16384

noncomputable section

namespace Cert.ReferenceIdeal.RefValue

open Cert.ReferenceIdeal Cert.ReferenceIdeal.Gen Cert.ReferenceIdeal.Value Idealize.ShloMosaic Idealize.ShloMosaic.TcCoe Idealize.SL.Sem
open Idealize.ShloMosaic.ValueIdx
open Cert.MlpRow

/-- An index vector with the table's length 100000 added where it is negative, as a column. -/
def wrapped (ix : IVec S2000000 32) : IVec S2000000x1 32 :=
  broadcastInDim S2000000x1 ![0] Facts₀.bcast_S2000000_S2000000x1_0
    (select (cmpi .slt ix (broadcastInDim S2000000 ![] Facts₀.bcast_S_S2000000 (constantI S_ 32 0#32)))
      (addi ix (broadcastInDim S2000000 ![] Facts₀.bcast_S_S2000000 (constantI S_ 32 100000#32))) ix)

/-- The labels the reference returns: the label table gathered at the wrapped row indices. -/
def labelsOf (lab : IVec S100000 32) (row : IVec S2000000 32) : IVec S2000000 32 :=
  Host.gather gather_S100000_S2000000x1_S2000000_n_0_n_n_0_1_1 lab (wrapped row)

/-- The 67-column input: each edge's source features beside the difference of its two end points' coordinates. -/
def gathered (pcd : FVec Ideal S100000x3 .f32) (feats : FVec Ideal S100000x64 .f32) (pts : FVec Ideal S100000x3 .f32)
    (row col : IVec S2000000 32) : FVec Ideal S2000000x67 .f32 :=
  concatenate S2000000x67 1
    [⟨S2000000x64, Host.gather gather_S100000x64_S2000000x1_S2000000x64_1_0_n_n_0_1_164 feats (wrapped col)⟩,
     ⟨S2000000x3, subf (Host.gather gather_S100000x3_S2000000x1_S2000000x3_1_0_n_n_0_1_13 pts (wrapped row))
        (Host.gather gather_S100000x3_S2000000x1_S2000000x3_1_0_n_n_0_1_13 pcd (wrapped col))⟩]
    Facts₀.concatenates_S2000000x64_S2000000x3_S2000000x67_d1

variable (m : (ℓ : Loc nD τ sig) → Buf (Elt Ideal) ℓ)

/-- The run's composed term is the reference spelling of the network on the gathered input. -/
theorem res_eq (c : Dev nD) :
    res_main_v51 m c = hNet (R := 2000000) (φx := .f32) (φw := .f32)
      (gathered (m ((c.tc : Thread nD τ).loc main_arg0)) (m ((c.tc : Thread nD τ).loc main_arg1)) (m ((c.tc : Thread nD τ).loc main_arg2))
        (m ((c.tc : Thread nD τ).loc main_arg4)) (m ((c.tc : Thread nD τ).loc main_arg5)))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13))
      Facts₀.bcast_S64_S1x64_1 Facts₀.bcast_S1x64_S2000000x64_0_1 Facts₀.bcast_S2_S1x2_1 Facts₀.bcast_S1x2_S2000000x2_0_1
      Facts₀.bcast_S_S2000000x64 Facts₀.reducesTo_S2000000x2_S2000000_d1 Facts₀.h_S_ Facts₀.bcast_S_S2000000
      Facts₀.bcast_S2000000_S2000000x1_0 Facts₀.bcast_S2000000x1_S2000000x2_0_1 := by
  unfold res_main_v51
  rfl

theorem reduces_cols : S2000000x2.Reduces [1] S2000000 := by decide

/-- Row e of the reference's result: the row network of row e of the gathered input. -/
theorem res_row (c : Dev nD) (e : Fin 2000000) (j : Fin 2) :
    (res_main_v51 m c : S2000000x2.Idx → EReal) (ix2 e j)
      = net (fun k => gathered (m ((c.tc : Thread nD τ).loc main_arg0)) (m ((c.tc : Thread nD τ).loc main_arg1)) (m ((c.tc : Thread nD τ).loc main_arg2))
              (m ((c.tc : Thread nD τ).loc main_arg4)) (m ((c.tc : Thread nD τ).loc main_arg5)) (ix2 e k))
          (fun k n => m ((c.tc : Thread nD τ).loc main_arg6) (ix2 k n)) (fun n => m ((c.tc : Thread nD τ).loc main_arg7) (ix1 n))
          (fun k n => m ((c.tc : Thread nD τ).loc main_arg8) (ix2 k n)) (fun n => m ((c.tc : Thread nD τ).loc main_arg9) (ix1 n))
          (fun k n => m ((c.tc : Thread nD τ).loc main_arg10) (ix2 k n)) (fun n => m ((c.tc : Thread nD τ).loc main_arg11) (ix1 n))
          (fun k n => m ((c.tc : Thread nD τ).loc main_arg12) (ix2 k n)) (fun n => m ((c.tc : Thread nD τ).loc main_arg13) (ix1 n)) j := by
  rw [res_eq]
  exact congrFun (hNet_row (R := 2000000) (φx := .f32) (φw := .f32)
    (gathered (m ((c.tc : Thread nD τ).loc main_arg0)) (m ((c.tc : Thread nD τ).loc main_arg1)) (m ((c.tc : Thread nD τ).loc main_arg2))
      (m ((c.tc : Thread nD τ).loc main_arg4)) (m ((c.tc : Thread nD τ).loc main_arg5)))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13))
    Facts₀.bcast_S64_S1x64_1 Facts₀.bcast_S1x64_S2000000x64_0_1 Facts₀.bcast_S2_S1x2_1 Facts₀.bcast_S1x2_S2000000x2_0_1
    Facts₀.bcast_S_S2000000x64 Facts₀.reducesTo_S2000000x2_S2000000_d1 Facts₀.h_S_ Facts₀.bcast_S_S2000000
    Facts₀.bcast_S2000000_S2000000x1_0 Facts₀.bcast_S2000000x1_S2000000x2_0_1 reduces_cols e) j

end Cert.ReferenceIdeal.RefValue
-- ==== Proof.lean ====
/-
  The kernel against its reference, over the extended reals.

  Both programs gather, for each of the 2000000 edges, the source point's 64 features and the difference of the
  edge's two end points' coordinates (a negative index first has the table's length added), and send that row of 67
  numbers through four dense layers — the rectifier after the first and the second — and a two-way softmax; both
  return beside it the query point's label. The reference does this on whole arrays; the kernel narrows the features,
  the differences and the weights to bf16 and runs the layers block by block, 10000 rows at each of 200 grid points.
  At the extended reals a change of float format is the identity, a block product into a zero accumulator and a host
  product are the same sum, a lane maximum or sum and a host reduce are the same fold, so row by row both results are
  ONE function of the row (Proof/RowNet.lean): the kernel's by KernelSpelling, KernelValue (what a grid point writes
  back is its block of one array; the blocks tile the rows) and KernelRun (the host lines around the region); the
  reference's by HostSpelling and RefValue over its generated run. The two gathered inputs are the same term once
  the arguments agree. No precondition is used: every step is an identity on all extended reals.

  The three frames are the generated ones (the reference's is its generated run with the results dropped), and the
  idealization's ledger is empty.
-/
import proofs.«118086_j16681652977700_1_alg».proof.Defs
import proofs.«118086_j16681652977700_1_alg».proof.Proof.Gen.Kernel
import proofs.«118086_j16681652977700_1_alg».proof.Proof.Gen.Kernel.Skeleton
import proofs.«118086_j16681652977700_1_alg».proof.Proof.Gen.Kernel.Launch
import proofs.«118086_j16681652977700_1_alg».proof.Proof.Gen.Kernel.Points
import proofs.«118086_j16681652977700_1_alg».proof.Proof.Gen.Kernel.Frame
import proofs.«118086_j16681652977700_1_alg».proof.Proof.Gen.KernelIdeal
import proofs.«118086_j16681652977700_1_alg».proof.Proof.Gen.KernelIdeal.Skeleton
import proofs.«118086_j16681652977700_1_alg».proof.Proof.Gen.KernelIdeal.Launch
import proofs.«118086_j16681652977700_1_alg».proof.Proof.Gen.KernelIdeal.Points
import proofs.«118086_j16681652977700_1_alg».proof.Proof.Gen.KernelIdeal.Frame
import proofs.«118086_j16681652977700_1_alg».proof.Proof.Gen.ReferenceIdeal
import proofs.«118086_j16681652977700_1_alg».proof.Proof.Gen.ReferenceIdeal.Run
import proofs.«118086_j16681652977700_1_alg».proof.Proof.Gen.Pre_finite_inputs
import proofs.«118086_j16681652977700_1_alg».proof.Proof.KernelRun
import proofs.«118086_j16681652977700_1_alg».proof.Proof.RefValue
import Idealize.ShloMosaic.Adequacy
import Idealize.ShloMosaic.Init

set_option maxRecDepth 16384

noncomputable section

namespace Cert.Proof

open Idealize.ShloMosaic Idealize.SL.Sem Idealize.ShloMosaic.ValueIdx Cert.MlpRow

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the same result array — row e of either is the row
    network of row e of the gathered input, and the two gathered inputs are one term — and the same labels. -/
theorem algebraic : Cert.algebraic_KernelIdeal_ReferenceIdeal := by
  intro m ρ m' ρ' _ hagree
  refine ⟨_, _, Cert.KernelIdeal.RowValue.run m ρ, ?_⟩
  refine (θ_run Cert.ReferenceIdeal.defs _ _).mono (fun _ h c => ?_) (Cert.ReferenceIdeal.Value.run (F := Ideal) m' ρ')
  obtain ⟨h0, h1, h2, h3, h4, h5, h6, h7, h8, h9, h10, h11, h12, h13⟩ := hagree c
  refine ⟨(h c).1.trans ?_, (h c).2.1.trans ?_, (h c).2.2⟩
  · show (Cert.ReferenceIdeal.Value.res_main_v51 m' c : Cert.ReferenceIdeal.S2000000x2.Idx → EReal) = Cert.KernelIdeal.RowValue.outArr m c
    funext i
    obtain ⟨e, j, rfl⟩ : ∃ (e : Fin 2000000) (j : Fin 2), i = ix2 e j := ⟨i 0, i 1, eq_ix2 i⟩
    rw [Cert.ReferenceIdeal.RefValue.res_row, Cert.KernelIdeal.RowValue.outArr_ix2]
    unfold Cert.KernelIdeal.RowValue.rowOut
    rw [Cert.KernelIdeal.RowValue.xArr_eq, Cert.KernelIdeal.RowValue.wInArr_eq, Cert.KernelIdeal.RowValue.bInArr_eq,
      Cert.KernelIdeal.RowValue.w1Arr_eq, Cert.KernelIdeal.RowValue.b1Arr_eq, Cert.KernelIdeal.RowValue.w2Arr_eq,
      Cert.KernelIdeal.RowValue.b2Arr_eq, Cert.KernelIdeal.RowValue.wOutArr_eq, Cert.KernelIdeal.RowValue.bOutArr_eq]
    rw [h0, h1, h2, h4, h5, h6, h7, h8, h9, h10, h11, h12, h13]
    rfl
  · rw [h3, h4]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
